-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v76_0)) (v1 : (c : Dev Cert.KernelIdeal.nD) → Buf (Elt Ideal) ((c.tc : Thread Cert.KernelIdeal.nD Cert.KernelIdeal.τ).loc Cert.KernelIdeal.main_v76_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76_0) = v0 c
          ∧ r.2.mem ((c.tc : Thread Cert.KernelIdeal.nD Cert.KernelIdeal.τ).loc Cert.KernelIdeal.main_v76_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x160000 : Shape := ⟨2, ![2, 160000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S64x256x256 : Shape := ⟨3, ![64, 256, 256]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S64x256x256 : S_.BroadcastsInDim S64x256x256 (![] : Fin 0 → Fin S64x256x256.rank)
  reducesTo_S64x256x256_S_d0_1_2 : S64x256x256.ReducesTo [0, 1, 2] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64x256x256 .f32) (main_arg13 : FVec F S64 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S64x256x256 .f32 := Host.absf main_arg12
  let main_cst_20 : FVec F S_ .f32 := constant S_ .f32 0x7F800000#32
  let main_v55 : FVec F S64x256x256 .f32 := broadcastInDim S64x256x256 ![] bcast_S_S64x256x256 main_cst_20
  let main_v56 : IVec S64x256x256 1 := cmpf .olt main_v54 main_v55
  let main_c_21 : IVec S_ 1 := constantI S_ 1 1#1
  let main_v57 : IVec S_ 1 := (fun x v => Host.reduce IntOp.andi x v reducesTo_S64x256x256_S_d0_1_2 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S1x256 .f32) (main_arg9 : FVec F S1 .f32) (main_arg10 : FVec F S256x256 .f32) (main_arg11 : FVec F S256 .f32) (main_arg12 : FVec F S64x256x256 .f32) (main_arg13 : FVec F S64 .f32) (main_v33 : IVec S_ 1) : IVec S_ 1 :=
  let main_v34 : FVec F S1x256 .f32 := Host.absf main_arg8
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_v48 main_v49 main_v50

def fn_part1 {F : FTy → Type} [FloatOps F] (main_arg5 : FVec F S256 .f32) (main_arg6 : FVec F S256x256 .f32) (main_arg7 : FVec F S256 .f32) (main_arg8 : FVec F S1x256 .f32) (main_arg9 : FVec F S1 .f32) (main_arg10 : FVec F S256x256 .f32) (main_arg11 : FVec F S256 .f32) (main_arg12 : FVec F S64x256x256 .f32) (main_arg13 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S10000x256 .f32) (main_arg1 : IVec S2x160000 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S1x256 .f32) (main_arg9 : FVec F S1 .f32) (main_arg10 : FVec F S256x256 .f32) (main_arg11 : FVec F S256 .f32) (main_arg12 : FVec F S64x256x256 .f32) (main_arg13 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_v13 main_v16
-- ==== Kernel.lean ====
abbrev S10000x256 : Shape := ⟨2, ![10000, 256]⟩
abbrev S2x160000 : Shape := ⟨2, ![2, 160000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S64x256x256 : Shape := ⟨3, ![64, 256, 256]⟩
abbrev S64 : Shape := ⟨1, ![64]⟩
abbrev S2000x256 : Shape := ⟨2, ![2000, 256]⟩
abbrev S1x160000 : Shape := ⟨2, ![1, 160000]⟩
abbrev S160000 : Shape := ⟨1, ![160000]⟩
abbrev S_ : Shape := ⟨0, ![]⟩
abbrev S10000 : Shape := ⟨1, ![10000]⟩
abbrev S160000x1 : Shape := ⟨2, ![160000, 1]⟩
abbrev S160000x256 : Shape := ⟨2, ![160000, 256]⟩
abbrev S10000x1 : Shape := ⟨2, ![10000, 1]⟩
abbrev S256x1 : Shape := ⟨2, ![256, 1]⟩
abbrev S16384x256 : Shape := ⟨2, ![16384, 256]⟩
abbrev S256x16384 : Shape := ⟨2, ![256, 16384]⟩
abbrev S1x1 : Shape := ⟨2, ![1, 1]⟩
abbrev S1x64 : Shape := ⟨2, ![1, 64]⟩
abbrev S10000x64 : Shape := ⟨2, ![10000, 64]⟩
abbrev S400x256 : Shape := ⟨2, ![400, 256]⟩
abbrev S400x1 : Shape := ⟨2, ![400, 1]⟩
abbrev S400x64 : Shape := ⟨2, ![400, 64]⟩
abbrev S400 : Shape := ⟨1, ![400]⟩

abbrev nBuf : Space → Nat
  | .hbm => 107
  | .vmem => 21
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S256x256, .f32⟩
  | .hbm, ⟨11, _⟩ => ⟨S256, .f32⟩
  | .hbm, ⟨12, _⟩ => ⟨S64x256x256, .f32⟩
  | .hbm, ⟨13, _⟩ => ⟨S64, .f32⟩
  | .hbm, ⟨14, _⟩ => ⟨S256x256, .f32⟩
  | .hbm, ⟨15, _⟩ => ⟨S256x256, .bf16⟩
  | .hbm, ⟨16, _⟩ => ⟨S10000x256, .f32⟩
  | .hbm, ⟨17, _⟩ => ⟨S1x160000, .i32⟩
  | .hbm, ⟨18, _⟩ => ⟨S160000, .i32⟩
  | .hbm, ⟨19, _⟩ => ⟨S1x160000, .i32⟩
  | .hbm, ⟨20, _⟩ => ⟨S160000, .i32⟩
  | .hbm, ⟨21, _⟩ => ⟨S_, .f32⟩
  | .hbm, ⟨22, _⟩ => ⟨S160000, .f32⟩
  | .hbm, ⟨23, _⟩ => ⟨S_, .f32⟩
  | .hbm, ⟨24, _⟩ => ⟨S10000, .f32⟩
  | .hbm, ⟨25, _⟩ => ⟨S_, .i32⟩
  | .hbm, ⟨26, _⟩ => ⟨S160000, .i32⟩
  | .hbm, ⟨27, _⟩ => ⟨S160000, .i1⟩
  | .hbm, ⟨28, _⟩ => ⟨S_, .i32⟩
  | .hbm, ⟨29, _⟩ => ⟨S160000, .i32⟩
  | .hbm, ⟨30, _⟩ => ⟨S160000, .i32⟩
  | .hbm, ⟨31, _⟩ => ⟨S160000, .i32⟩
  | .hbm, ⟨32, _⟩ => ⟨S160000x1, .i32⟩
  | .hbm, ⟨33, _⟩ => ⟨S10000, .f32⟩
  | .hbm, ⟨34, _⟩ => ⟨S10000, .f32⟩
  | .hbm, ⟨35, _⟩ => ⟨S_, .i32⟩
  | .hbm, ⟨36, _⟩ => ⟨S160000, .i32⟩
  | .hbm, ⟨37, _⟩ => ⟨S160000, .i1⟩
  | .hbm, ⟨38, _⟩ => ⟨S_, .i32⟩
  | .hbm, ⟨39, _⟩ => ⟨S160000, .i32⟩
  | .hbm, ⟨40, _⟩ => ⟨S160000, .i32⟩
  | .hbm, ⟨41, _⟩ => ⟨S160000, .i32⟩
  | .hbm, ⟨42, _⟩ => ⟨S160000x1, .i32⟩
  | .hbm, ⟨43, _⟩ => ⟨S160000, .f32⟩
  | .hbm, ⟨44, _⟩ => ⟨S_, .i32⟩
  | .hbm, ⟨45, _⟩ => ⟨S160000, .i32⟩
  | .hbm, ⟨46, _⟩ => ⟨S160000, .i1⟩
  | .hbm, ⟨47, _⟩ => ⟨S_, .i32⟩
  | .hbm, ⟨48, _⟩ => ⟨S160000, .i32⟩
  | .hbm, ⟨49, _⟩ => ⟨S160000, .i32⟩
  | .hbm, ⟨50, _⟩ => ⟨S160000, .i32⟩
  | .hbm, ⟨51, _⟩ => ⟨S160000x1, .i32⟩
  | .hbm, ⟨52, _⟩ => ⟨S160000, .f32⟩
  | .hbm, ⟨53, _⟩ => ⟨S160000, .f32⟩
  | .hbm, ⟨54, _⟩ => ⟨S_, .f32⟩
  | .hbm, ⟨55, _⟩ => ⟨S10000x256, .f32⟩
  | .hbm, ⟨56, _⟩ => ⟨S160000x1, .f32⟩
  | .hbm, ⟨57, _⟩ => ⟨S_, .i32⟩
  | .hbm, ⟨58, _⟩ => ⟨S160000, .i32⟩
  | .hbm, ⟨59, _⟩ => ⟨S160000, .i1⟩
  | .hbm, ⟨60, _⟩ => ⟨S_, .i32⟩
  | .hbm, ⟨61, _⟩ => ⟨S160000, .i32⟩
  | .hbm, ⟨62, _⟩ => ⟨S160000, .i32⟩
  | .hbm, ⟨63, _⟩ => ⟨S160000, .i32⟩
  | .hbm, ⟨64, _⟩ => ⟨S160000x1, .i32⟩
  | .hbm, ⟨65, _⟩ => ⟨S160000x256, .f32⟩
  | .hbm, ⟨66, _⟩ => ⟨S160000x256, .f32⟩
  | .hbm, ⟨67, _⟩ => ⟨S160000x256, .f32⟩
  | .hbm, ⟨68, _⟩ => ⟨S_, .i32⟩
  | .hbm, ⟨69, _⟩ => ⟨S160000, .i32⟩
  | .hbm, ⟨70, _⟩ => ⟨S160000, .i1⟩
  | .hbm, ⟨71, _⟩ => ⟨S_, .i32⟩
  | .hbm, ⟨72, _⟩ => ⟨S160000, .i32⟩
  | .hbm, ⟨73, _⟩ => ⟨S160000, .i32⟩
  | .hbm, ⟨74, _⟩ => ⟨S160000, .i32⟩
  | .hbm, ⟨75, _⟩ => ⟨S160000x1, .i32⟩
  | .hbm, ⟨76, _⟩ => ⟨S10000x256, .f32⟩
  | .hbm, ⟨77, _⟩ => ⟨S10000, .f32⟩
  | .hbm, ⟨78, _⟩ => ⟨S10000x1, .f32⟩
  | .hbm, ⟨79, _⟩ => ⟨S10000x256, .f32⟩
  | .hbm, ⟨80, _⟩ => ⟨S10000x256, .f32⟩
  | .hbm, ⟨81, _⟩ => ⟨S10000x256, .f32⟩
  | .hbm, ⟨82, _⟩ => ⟨S1x256, .f32⟩
  | .hbm, ⟨83, _⟩ => ⟨S10000x256, .f32⟩
  | .hbm, ⟨84, _⟩ => ⟨S10000x256, .f32⟩
  | .hbm, ⟨85, _⟩ => ⟨S_, .f32⟩
  | .hbm, ⟨86, _⟩ => ⟨S10000x256, .f32⟩
  | .hbm, ⟨87, _⟩ => ⟨S10000x256, .f32⟩
  | .hbm, ⟨88, _⟩ => ⟨S10000x256, .f32⟩
  | .hbm, ⟨89, _⟩ => ⟨S256x256, .f32⟩
  | .hbm, ⟨90, _⟩ => ⟨S256x256, .bf16⟩
  | .hbm, ⟨91, _⟩ => ⟨S256x256, .f32⟩
  | .hbm, ⟨92, _⟩ => ⟨S256x256, .bf16⟩
  | .hbm, ⟨93, _⟩ => ⟨S256x1, .f32⟩
  | .hbm, ⟨94, _⟩ => ⟨S256x1, .bf16⟩
  | .hbm, ⟨95, _⟩ => ⟨S256x256, .f32⟩
  | .hbm, ⟨96, _⟩ => ⟨S256x256, .bf16⟩
  | .hbm, ⟨97, _⟩ => ⟨S16384x256, .f32⟩
  | .hbm, ⟨98, _⟩ => ⟨S256x16384, .f32⟩
  | .hbm, ⟨99, _⟩ => ⟨S256x16384, .bf16⟩
  | .hbm, ⟨100, _⟩ => ⟨S1x256, .f32⟩
  | .hbm, ⟨101, _⟩ => ⟨S1x256, .f32⟩
  | .hbm, ⟨102, _⟩ => ⟨S1x1, .f32⟩
  | .hbm, ⟨103, _⟩ => ⟨S1x256, .f32⟩
  | .hbm, ⟨104, _⟩ => ⟨S1x64, .f32⟩
  | .hbm, ⟨105, _⟩ => ⟨S10000x1, .f32⟩
  | .hbm, ⟨106, _⟩ => ⟨S10000x64, .f32⟩
  | .local _ .vmem, ⟨0, _⟩ => ⟨S2000x256, .f32⟩
  | .local _ .vmem, ⟨1, _⟩ => ⟨S2000x256, .f32⟩
  | .local _ .vmem, ⟨2, _⟩ => ⟨S256x256, .bf16⟩
  | .local _ .vmem, ⟨3, _⟩ => ⟨S2000x256, .f32⟩
  | .local _ .vmem, ⟨4, _⟩ => ⟨S2000x256, .f32⟩
  | .local _ .vmem, ⟨5, _⟩ => ⟨S400x256, .f32⟩
  | .local _ .vmem, ⟨6, _⟩ => ⟨S400x256, .f32⟩
  | .local _ .vmem, ⟨7, _⟩ => ⟨S256x256, .bf16⟩
  | .local _ .vmem, ⟨8, _⟩ => ⟨S1x256, .f32⟩
  | .local _ .vmem, ⟨9, _⟩ => ⟨S256x256, .bf16⟩
  | .local _ .vmem, ⟨10, _⟩ => ⟨S1x256, .f32⟩
  | .local _ .vmem, ⟨11, _⟩ => ⟨S256x1, .bf16⟩
  | .local _ .vmem, ⟨12, _⟩ => ⟨S1x1, .f32⟩
  | .local _ .vmem, ⟨13, _⟩ => ⟨S256x256, .bf16⟩
  | .local _ .vmem, ⟨14, _⟩ => ⟨S1x256, .f32⟩
  | .local _ .vmem, ⟨15, _⟩ => ⟨S256x16384, .bf16⟩
  | .local _ .vmem, ⟨16, _⟩ => ⟨S1x64, .f32⟩
  | .local _ .vmem, ⟨17, _⟩ => ⟨S400x1, .f32⟩
  | .local _ .vmem, ⟨18, _⟩ => ⟨S400x1, .f32⟩
  | .local _ .vmem, ⟨19, _⟩ => ⟨S400x64, .f32⟩
  | .local _ .vmem, ⟨20, _⟩ => ⟨S400x64, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call0_cst : Ref sig .tc := ⟨.hbm, 85, rfl⟩
abbrev main_call0_v0 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76_0 : Ref sig .tc := ⟨.hbm, 105, rfl⟩
abbrev main_v76_1 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg11_1 : Ref sig .tc := ⟨.vmem, 18, rfl⟩
abbrev cc1_stg12_0 : Ref sig .tc := ⟨.vmem, 19, rfl⟩
abbrev cc1_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem11_1 : DmaSem sig := 18
abbrev cc1_sem12_0 : DmaSem sig := 19
abbrev cc1_sem12_1 : DmaSem sig := 20

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x16384 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S400x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S400x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  transposes_S256x256_S256x256_1_0 : S256x256.Transposes [1, 0] S256x256
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S_S10000x256 : S_.BroadcastsInDim S10000x256 (![] : Fin 0 → Fin S10000x256.rank)
  bcast_S160000x1_S160000x256_0_1 : S160000x1.BroadcastsInDim S160000x256 (![0, 1] : Fin 2 → Fin S160000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  transposes_S1x256_S256x1_1_0 : S1x256.Transposes [1, 0] S256x1
  shapeCasts_S64x256x256_S16384x256 : S64x256x256.ShapeCasts S16384x256
  transposes_S16384x256_S256x16384_1_0 : S16384x256.Transposes [1, 0] S256x16384
  shapeCasts_S256_S1x256 : S256.ShapeCasts S1x256
  shapeCasts_S1_S1x1 : S1.ShapeCasts S1x1
  shapeCasts_S64_S1x64 : S64.ShapeCasts S1x64
  inb_S400x256_S400x256_0_0 : ∀ a, (![0, 0] : Fin 2 → Nat) a + S400x256.size a ≤ S400x256.size a
  h_S400x256 : 0 < S400x256.numel
  shapeCasts_S400x256_S400x256 : S400x256.ShapeCasts S400x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S400x1 : S1x1.Broadcasts S400x1
  inb_S400x1_S400x1_0_0 : ∀ a, (![0, 0] : Fin 2 → Nat) a + S400x1.size a ≤ S400x1.size a
  h_S400x1 : 0 < S400x1.numel
  inb_S256x16384_S256x256_0_0 : ∀ a, (![0, 0] : Fin 2 → Nat) a + S256x256.size a ≤ S256x16384.size a
  reduces_S400x256_S400 : S400x256.Reduces [1] S400
  shapeCasts_S400_S400x1 : S400.ShapeCasts S400x1
  inb_S256x16384_S256x256_0_256 : ∀ a, (![0, 256] : Fin 2 → Nat) a + S256x256.size a ≤ S256x16384.size a
  inb_S256x16384_S256x256_0_512 : ∀ a, (![0, 512] : Fin 2 → Nat) a + S256x256.size a ≤ S256x16384.size a
  inb_S256x16384_S256x256_0_768 : ∀ a, (![0, 768] : Fin 2 → Nat) a + S256x256.size a ≤ S256x16384.size a
  inb_S256x16384_S256x256_0_1024 : ∀ a, (![0, 1024] : Fin 2 → Nat) a + S256x256.size a ≤ S256x16384.size a
  inb_S256x16384_S256x256_0_1280 : ∀ a, (![0, 1280] : Fin 2 → Nat) a + S256x256.size a ≤ S256x16384.size a
  inb_S256x16384_S256x256_0_1536 : ∀ a, (![0, 1536] : Fin 2 → Nat) a + S256x256.size a ≤ S256x16384.size a
  inb_S256x16384_S256x256_0_1792 : ∀ a, (![0, 1792] : Fin 2 → Nat) a + S256x256.size a ≤ S256x16384.size a
  inb_S256x16384_S256x256_0_2048 : ∀ a, (![0, 2048] : Fin 2 → Nat) a + S256x256.size a ≤ S256x16384.size a
  inb_S256x16384_S256x256_0_2304 : ∀ a, (![0, 2304] : Fin 2 → Nat) a + S256x256.size a ≤ S256x16384.size a
  inb_S256x16384_S256x256_0_2560 : ∀ a, (![0, 2560] : Fin 2 → Nat) a + S256x256.size a ≤ S256x16384.size a
  inb_S256x16384_S256x256_0_2816 : ∀ a, (![0, 2816] : Fin 2 → Nat) a + S256x256.size a ≤ S256x16384.size a
  inb_S256x16384_S256x256_0_3072 : ∀ a, (![0, 3072] : Fin 2 → Nat) a + S256x256.size a ≤ S256x16384.size a
  inb_S256x16384_S256x256_0_3328 : ∀ a, (![0, 3328] : Fin 2 → Nat) a + S256x256.size a ≤ S256x16384.size a
  inb_S256x16384_S256x256_0_3584 : ∀ a, (![0, 3584] : Fin 2 → Nat) a + S256x256.size a ≤ S256x16384.size a
  inb_S256x16384_S256x256_0_3840 : ∀ a, (![0, 3840] : Fin 2 → Nat) a + S256x256.size a ≤ S256x16384.size a
  inb_S256x16384_S256x256_0_4096 : ∀ a, (![0, 4096] : Fin 2 → Nat) a + S256x256.size a ≤ S256x16384.size a
  inb_S256x16384_S256x256_0_4352 : ∀ a, (![0, 4352] : Fin 2 → Nat) a + S256x256.size a ≤ S256x16384.size a
  inb_S256x16384_S256x256_0_4608 : ∀ a, (![0, 4608] : Fin 2 → Nat) a + S256x256.size a ≤ S256x16384.size a
  inb_S256x16384_S256x256_0_4864 : ∀ a, (![0, 4864] : Fin 2 → Nat) a + S256x256.size a ≤ S256x16384.size a
  inb_S256x16384_S256x256_0_5120 : ∀ a, (![0, 5120] : Fin 2 → Nat) a + S256x256.size a ≤ S256x16384.size a
  inb_S256x16384_S256x256_0_5376 : ∀ a, (![0, 5376] : Fin 2 → Nat) a + S256x256.size a ≤ S256x16384.size a
  inb_S256x16384_S256x256_0_5632 : ∀ a, (![0, 5632] : Fin 2 → Nat) a + S256x256.size a ≤ S256x16384.size a
  inb_S256x16384_S256x256_0_5888 : ∀ a, (![0, 5888] : Fin 2 → Nat) a + S256x256.size a ≤ S256x16384.size a
  inb_S256x16384_S256x256_0_6144 : ∀ a, (![0, 6144] : Fin 2 → Nat) a + S256x256.size a ≤ S256x16384.size a
  inb_S256x16384_S256x256_0_6400 : ∀ a, (![0, 6400] : Fin 2 → Nat) a + S256x256.size a ≤ S256x16384.size a
  inb_S256x16384_S256x256_0_6656 : ∀ a, (![0, 6656] : Fin 2 → Nat) a + S256x256.size a ≤ S256x16384.size a
  inb_S256x16384_S256x256_0_6912 : ∀ a, (![0, 6912] : Fin 2 → Nat) a + S256x256.size a ≤ S256x16384.size a
  inb_S256x16384_S256x256_0_7168 : ∀ a, (![0, 7168] : Fin 2 → Nat) a + S256x256.size a ≤ S256x16384.size a
  inb_S256x16384_S256x256_0_7424 : ∀ a, (![0, 7424] : Fin 2 → Nat) a + S256x256.size a ≤ S256x16384.size a
  inb_S256x16384_S256x256_0_7680 : ∀ a, (![0, 7680] : Fin 2 → Nat) a + S256x256.size a ≤ S256x16384.size a
  inb_S256x16384_S256x256_0_7936 : ∀ a, (![0, 7936] : Fin 2 → Nat) a + S256x256.size a ≤ S256x16384.size a
  inb_S256x16384_S256x256_0_8192 : ∀ a, (![0, 8192] : Fin 2 → Nat) a + S256x256.size a ≤ S256x16384.size a
  inb_S256x16384_S256x256_0_8448 : ∀ a, (![0, 8448] : Fin 2 → Nat) a + S256x256.size a ≤ S256x16384.size a
  inb_S256x16384_S256x256_0_8704 : ∀ a, (![0, 8704] : Fin 2 → Nat) a + S256x256.size a ≤ S256x16384.size a
  inb_S256x16384_S256x256_0_8960 : ∀ a, (![0, 8960] : Fin 2 → Nat) a + S256x256.size a ≤ S256x16384.size a
  inb_S256x16384_S256x256_0_9216 : ∀ a, (![0, 9216] : Fin 2 → Nat) a + S256x256.size a ≤ S256x16384.size a
  inb_S256x16384_S256x256_0_9472 : ∀ a, (![0, 9472] : Fin 2 → Nat) a + S256x256.size a ≤ S256x16384.size a
  inb_S256x16384_S256x256_0_9728 : ∀ a, (![0, 9728] : Fin 2 → Nat) a + S256x256.size a ≤ S256x16384.size a
  inb_S256x16384_S256x256_0_9984 : ∀ a, (![0, 9984] : Fin 2 → Nat) a + S256x256.size a ≤ S256x16384.size a
  inb_S256x16384_S256x256_0_10240 : ∀ a, (![0, 10240] : Fin 2 → Nat) a + S256x256.size a ≤ S256x16384.size a
  inb_S256x16384_S256x256_0_10496 : ∀ a, (![0, 10496] : Fin 2 → Nat) a + S256x256.size a ≤ S256x16384.size a
  inb_S256x16384_S256x256_0_10752 : ∀ a, (![0, 10752] : Fin 2 → Nat) a + S256x256.size a ≤ S256x16384.size a
  inb_S256x16384_S256x256_0_11008 : ∀ a, (![0, 11008] : Fin 2 → Nat) a + S256x256.size a ≤ S256x16384.size a
  inb_S256x16384_S256x256_0_11264 : ∀ a, (![0, 11264] : Fin 2 → Nat) a + S256x256.size a ≤ S256x16384.size a
  inb_S256x16384_S256x256_0_11520 : ∀ a, (![0, 11520] : Fin 2 → Nat) a + S256x256.size a ≤ S256x16384.size a
  inb_S256x16384_S256x256_0_11776 : ∀ a, (![0, 11776] : Fin 2 → Nat) a + S256x256.size a ≤ S256x16384.size a
  inb_S256x16384_S256x256_0_12032 : ∀ a, (![0, 12032] : Fin 2 → Nat) a + S256x256.size a ≤ S256x16384.size a
  inb_S256x16384_S256x256_0_12288 : ∀ a, (![0, 12288] : Fin 2 → Nat) a + S256x256.size a ≤ S256x16384.size a
  inb_S256x16384_S256x256_0_12544 : ∀ a, (![0, 12544] : Fin 2 → Nat) a + S256x256.size a ≤ S256x16384.size a
  inb_S256x16384_S256x256_0_12800 : ∀ a, (![0, 12800] : Fin 2 → Nat) a + S256x256.size a ≤ S256x16384.size a
  inb_S256x16384_S256x256_0_13056 : ∀ a, (![0, 13056] : Fin 2 → Nat) a + S256x256.size a ≤ S256x16384.size a
  inb_S256x16384_S256x256_0_13312 : ∀ a, (![0, 13312] : Fin 2 → Nat) a + S256x256.size a ≤ S256x16384.size a
  inb_S256x16384_S256x256_0_13568 : ∀ a, (![0, 13568] : Fin 2 → Nat) a + S256x256.size a ≤ S256x16384.size a
  inb_S256x16384_S256x256_0_13824 : ∀ a, (![0, 13824] : Fin 2 → Nat) a + S256x256.size a ≤ S256x16384.size a
  inb_S256x16384_S256x256_0_14080 : ∀ a, (![0, 14080] : Fin 2 → Nat) a + S256x256.size a ≤ S256x16384.size a
  inb_S256x16384_S256x256_0_14336 : ∀ a, (![0, 14336] : Fin 2 → Nat) a + S256x256.size a ≤ S256x16384.size a
  inb_S256x16384_S256x256_0_14592 : ∀ a, (![0, 14592] : Fin 2 → Nat) a + S256x256.size a ≤ S256x16384.size a
  inb_S256x16384_S256x256_0_14848 : ∀ a, (![0, 14848] : Fin 2 → Nat) a + S256x256.size a ≤ S256x16384.size a
  inb_S256x16384_S256x256_0_15104 : ∀ a, (![0, 15104] : Fin 2 → Nat) a + S256x256.size a ≤ S256x16384.size a
  inb_S256x16384_S256x256_0_15360 : ∀ a, (![0, 15360] : Fin 2 → Nat) a + S256x256.size a ≤ S256x16384.size a
  inb_S256x16384_S256x256_0_15616 : ∀ a, (![0, 15616] : Fin 2 → Nat) a + S256x256.size a ≤ S256x16384.size a
  inb_S256x16384_S256x256_0_15872 : ∀ a, (![0, 15872] : Fin 2 → Nat) a + S256x256.size a ≤ S256x16384.size a
  inb_S256x16384_S256x256_0_16128 : ∀ a, (![0, 16128] : Fin 2 → Nat) a + S256x256.size a ≤ S256x16384.size a
  concatenates_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x64_d1 : Shape.Concatenates (S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: []) S400x64 1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  dot_S2000x256_S256x256_S2000x256_1_0_0_1_n_n_wf : DotDims.WF S2000x256 S256x256 S2000x256 [1] [0] [0] [1] [] []
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  dot_S400x256_S256x256_S400x256_1_0_0_1_n_n_wf : DotDims.WF S400x256 S256x256 S400x256 [1] [0] [0] [1] [] []
  dot_S400x256_S256x1_S400x1_1_0_0_1_n_n_wf : DotDims.WF S400x256 S256x1 S400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S10000x256.size a
  hwx0_2 : ∀ i : grid0.Coords, EltTy.bits .f32 = 32 ∨ (Rect.block (s := S10000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x256.size a ≤ S10000x256.size a
  hwx1_0 : ∀ i : grid1.Coords, EltTy.bits .f32 = 32 ∨ (Rect.block (s := S10000x256) S400x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S256x1.size a
  hwx1_5 : ∀ i : grid1.Coords, EltTy.bits .bf16 = 32 ∨ (Rect.block (s := S256x1) S256x1.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .bf16 = 32 ∨ (Rect.block (s := S256x256) S256x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x16384.size a ≤ S256x16384.size a
  hwx1_9 : ∀ i : grid1.Coords, EltTy.bits .bf16 = 32 ∨ (Rect.block (s := S256x16384) S256x16384.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S400x1.size a ≤ S10000x1.size a
  hwx1_11 : ∀ i : grid1.Coords, EltTy.bits .f32 = 32 ∨ (Rect.block (s := S10000x1) S400x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S400x64.size a ≤ S10000x64.size a
  hwx1_12 : ∀ i : grid1.Coords, EltTy.bits .f32 = 32 ∨ (Rect.block (s := S10000x64) S400x64.size (cc1_transform_12 i) (hinb1_12 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S400x256_S256x1_S400x1_1_0_0_1_n_n : DotDims S400x256 S256x1 S400x1 where
  lhsContracting := [1]
  rhsContracting := [0]
  lhsNonContracting := [0]
  rhsNonContracting := [1]
  lhsBatch := []
  rhsBatch := []
  wf := dot_S400x256_S256x1_S400x1_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v59) S400x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v71) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v72) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v65) S256x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v73) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v67) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v74) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v70) S256x16384.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v75) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v76_0) S400x1.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v76_1) S400x64.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S10000x256 : Shape := ⟨2, ![10000, 256]⟩
abbrev S2x160000 : Shape := ⟨2, ![2, 160000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S64x256x256 : Shape := ⟨3, ![64, 256, 256]⟩
abbrev S64 : Shape := ⟨1, ![64]⟩
abbrev S1x160000 : Shape := ⟨2, ![1, 160000]⟩
abbrev S160000 : Shape := ⟨1, ![160000]⟩
abbrev S_ : Shape := ⟨0, ![]⟩
abbrev S10000 : Shape := ⟨1, ![10000]⟩
abbrev S160000x1 : Shape := ⟨2, ![160000, 1]⟩
abbrev S160000x256 : Shape := ⟨2, ![160000, 256]⟩
abbrev S10000x1 : Shape := ⟨2, ![10000, 1]⟩
abbrev S256x1 : Shape := ⟨2, ![256, 1]⟩
abbrev S1x1 : Shape := ⟨2, ![1, 1]⟩
abbrev S16384x256 : Shape := ⟨2, ![16384, 256]⟩
abbrev S256x16384 : Shape := ⟨2, ![256, 16384]⟩
abbrev S10000x16384 : Shape := ⟨2, ![10000, 16384]⟩
abbrev S10000x64x256 : Shape := ⟨3, ![10000, 64, 256]⟩
abbrev S10000x1x256 : Shape := ⟨3, ![10000, 1, 256]⟩
abbrev S10000x64 : Shape := ⟨2, ![10000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S10000x256, .f32⟩
  | 1 => ⟨S2x160000, .i32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S1x256, .f32⟩
  | 9 => ⟨S1, .f32⟩
  | 10 => ⟨S256x256, .f32⟩
  | 11 => ⟨S256, .f32⟩
  | 12 => ⟨S64x256x256, .f32⟩
  | 13 => ⟨S64, .f32⟩
  | 14 => ⟨S1x160000, .i32⟩
  | 15 => ⟨S160000, .i32⟩
  | 16 => ⟨S1x160000, .i32⟩
  | 17 => ⟨S160000, .i32⟩
  | 18 => ⟨S256x256, .f32⟩
  | 19 => ⟨S10000x256, .f32⟩
  | 20 => ⟨S_, .f32⟩
  | 21 => ⟨S10000, .f32⟩
  | 22 => ⟨S_, .f32⟩
  | 23 => ⟨S160000, .f32⟩
  | 24 => ⟨S_, .i32⟩
  | 25 => ⟨S160000, .i32⟩
  | 26 => ⟨S160000, .i1⟩
  | 27 => ⟨S_, .i32⟩
  | 28 => ⟨S160000, .i32⟩
  | 29 => ⟨S160000, .i32⟩
  | 30 => ⟨S160000, .i32⟩
  | 31 => ⟨S160000x1, .i32⟩
  | 32 => ⟨S10000, .f32⟩
  | 33 => ⟨S10000, .f32⟩
  | 34 => ⟨S_, .i32⟩
  | 35 => ⟨S160000, .i32⟩
  | 36 => ⟨S160000, .i1⟩
  | 37 => ⟨S_, .i32⟩
  | 38 => ⟨S160000, .i32⟩
  | 39 => ⟨S160000, .i32⟩
  | 40 => ⟨S160000, .i32⟩
  | 41 => ⟨S160000x1, .i32⟩
  | 42 => ⟨S160000, .f32⟩
  | 43 => ⟨S_, .i32⟩
  | 44 => ⟨S160000, .i32⟩
  | 45 => ⟨S160000, .i1⟩
  | 46 => ⟨S_, .i32⟩
  | 47 => ⟨S160000, .i32⟩
  | 48 => ⟨S160000, .i32⟩
  | 49 => ⟨S160000, .i32⟩
  | 50 => ⟨S160000x1, .i32⟩
  | 51 => ⟨S160000, .f32⟩
  | 52 => ⟨S160000, .f32⟩
  | 53 => ⟨S_, .f32⟩
  | 54 => ⟨S10000x256, .f32⟩
  | 55 => ⟨S160000x1, .f32⟩
  | 56 => ⟨S_, .i32⟩
  | 57 => ⟨S160000, .i32⟩
  | 58 => ⟨S160000, .i1⟩
  | 59 => ⟨S_, .i32⟩
  | 60 => ⟨S160000, .i32⟩
  | 61 => ⟨S160000, .i32⟩
  | 62 => ⟨S160000, .i32⟩
  | 63 => ⟨S160000x1, .i32⟩
  | 64 => ⟨S160000x256, .f32⟩
  | 65 => ⟨S160000x256, .f32⟩
  | 66 => ⟨S160000x256, .f32⟩
  | 67 => ⟨S_, .i32⟩
  | 68 => ⟨S160000, .i32⟩
  | 69 => ⟨S160000, .i1⟩
  | 70 => ⟨S_, .i32⟩
  | 71 => ⟨S160000, .i32⟩
  | 72 => ⟨S160000, .i32⟩
  | 73 => ⟨S160000, .i32⟩
  | 74 => ⟨S160000x1, .i32⟩
  | 75 => ⟨S10000x256, .f32⟩
  | 76 => ⟨S10000, .f32⟩
  | 77 => ⟨S10000x1, .f32⟩
  | 78 => ⟨S10000x256, .f32⟩
  | 79 => ⟨S10000x256, .f32⟩
  | 80 => ⟨S10000x256, .f32⟩
  | 81 => ⟨S1x256, .f32⟩
  | 82 => ⟨S10000x256, .f32⟩
  | 83 => ⟨S10000x256, .f32⟩
  | 84 => ⟨S_, .f32⟩
  | 85 => ⟨S10000x256, .f32⟩
  | 86 => ⟨S10000x256, .f32⟩
  | 87 => ⟨S10000x256, .f32⟩
  | 88 => ⟨S256x256, .f32⟩
  | 89 => ⟨S10000x256, .f32⟩
  | 90 => ⟨S1x256, .f32⟩
  | 91 => ⟨S10000x256, .f32⟩
  | 92 => ⟨S10000x256, .f32⟩
  | 93 => ⟨S_, .f32⟩
  | 94 => ⟨S10000x256, .f32⟩
  | 95 => ⟨S10000x256, .f32⟩
  | 96 => ⟨S256x256, .f32⟩
  | 97 => ⟨S10000x256, .f32⟩
  | 98 => ⟨S1x256, .f32⟩
  | 99 => ⟨S10000x256, .f32⟩
  | 100 => ⟨S10000x256, .f32⟩
  | 101 => ⟨S_, .f32⟩
  | 102 => ⟨S10000x256, .f32⟩
  | 103 => ⟨S10000x256, .f32⟩
  | 104 => ⟨S256x1, .f32⟩
  | 105 => ⟨S10000x1, .f32⟩
  | 106 => ⟨S1x1, .f32⟩
  | 107 => ⟨S10000x1, .f32⟩
  | 108 => ⟨S10000x1, .f32⟩
  | 109 => ⟨S256x256, .f32⟩
  | 110 => ⟨S10000x256, .f32⟩
  | 111 => ⟨S1x256, .f32⟩
  | 112 => ⟨S10000x256, .f32⟩
  | 113 => ⟨S10000x256, .f32⟩
  | 114 => ⟨S_, .f32⟩
  | 115 => ⟨S10000x256, .f32⟩
  | 116 => ⟨S10000x256, .f32⟩
  | 117 => ⟨S16384x256, .f32⟩
  | 118 => ⟨S256x16384, .f32⟩
  | 119 => ⟨S10000x16384, .f32⟩
  | 120 => ⟨S10000x64x256, .f32⟩
  | 121 => ⟨S10000x1x256, .f32⟩
  | 122 => ⟨S10000x64x256, .f32⟩
  | 123 => ⟨S10000x64x256, .f32⟩
  | 124 => ⟨S_, .f32⟩
  | 125 => ⟨S10000x64, .f32⟩
  | 126 => ⟨S1x64, .f32⟩
  | 127 => ⟨S10000x64, .f32⟩
  | _ => ⟨S10000x256, .f32⟩

abbrev hbmTy0_1 (i : Nat) : BufTy := match i % 128 with
  | 0 => ⟨S10000x64, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call0_cst : Ref sig .tc := ⟨.hbm, 84, rfl⟩
abbrev main_call0_v0 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call1_cst : Ref sig .tc := ⟨.hbm, 93, rfl⟩
abbrev main_call1_v0 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call2_cst : Ref sig .tc := ⟨.hbm, 101, rfl⟩
abbrev main_call2_v0 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call3_cst : Ref sig .tc := ⟨.hbm, 114, rfl⟩
abbrev main_call3_v0 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_11 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  transposes_S256x256_S256x256_1_0 : S256x256.Transposes [1, 0] S256x256
  bcast_S_S10000 : S_.BroadcastsInDim S10000 (![] : Fin 0 → Fin S10000.rank)
  bcast_S_S160000 : S_.BroadcastsInDim S160000 (![] : Fin 0 → Fin S160000.rank)
  bcast_S160000_S160000x1_0 : S160000.BroadcastsInDim S160000x1 (![0] : Fin 1 → Fin S160000x1.rank)
  bcast_S_S10000x256 : S_.BroadcastsInDim S10000x256 (![] : Fin 0 → Fin S10000x256.rank)
  bcast_S160000x1_S160000x256_0_1 : S160000x1.BroadcastsInDim S160000x256 (![0, 1] : Fin 2 → Fin S160000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  transposes_S1x256_S256x1_1_0 : S1x256.Transposes [1, 0] S256x1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  shapeCasts_S64x256x256_S16384x256 : S64x256x256.ShapeCasts S16384x256
  transposes_S16384x256_S256x16384_1_0 : S16384x256.Transposes [1, 0] S256x16384
  shapeCasts_S10000x16384_S10000x64x256 : S10000x16384.ShapeCasts S10000x64x256
  bcast_S10000x256_S10000x1x256_0_2 : S10000x256.BroadcastsInDim S10000x1x256 (![0, 2] : Fin 2 → Fin S10000x1x256.rank)
  bcast_S10000x1x256_S10000x64x256_0_1_2 : S10000x1x256.BroadcastsInDim S10000x64x256 (![0, 1, 2] : Fin 3 → Fin S10000x64x256.rank)
  reducesTo_S10000x64x256_S10000x64_d2 : S10000x64x256.ReducesTo [2] S10000x64
  h_S_ : 0 < S_.numel
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x256_S256x256_S10000x256_1_0_0_1_n_n_wf : DotDims.WF S10000x256 S256x256 S10000x256 [1] [0] [0] [1] [] []
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  dot_S10000x256_S256x1_S10000x1_1_0_0_1_n_n_wf : DotDims.WF S10000x256 S256x1 S10000x1 [1] [0] [0] [1] [] []
  dot_S10000x256_S256x16384_S10000x16384_1_0_0_1_n_n_wf : DotDims.WF S10000x256 S256x16384 S10000x16384 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf
def dot_S10000x256_S256x16384_S10000x16384_1_0_0_1_n_n : DotDims S10000x256 S256x16384 S10000x16384 where
  lhsContracting := [1]
  rhsContracting := [0]
  lhsNonContracting := [0]
  rhsNonContracting := [1]
  lhsBatch := []
  rhsBatch := []
  wf := dot_S10000x256_S256x16384_S10000x16384_1_0_0_1_n_n_wf

class Facts : Prop extends Facts₀ where

variable [Facts]
-- ==== Proof.Spec.lean ====
/- What the network computes after the graph convolution, as functions on the extended reals over matrices of any
   number of rows: a linear layer (rows against the columns of a weight matrix already laid out [in, out], plus a
   one-row bias), the rectifier max(., 0) with the zero written as the float word it is printed with, the scalar
   head x1 = lin3 (relu (lin2 (relu (lin1 h0)))), and the bilinear head
   x2 (p, r) = Σ_j (Σ_c h (p, c) · W (c, 256 r + j)) · h (p, j) + b (r) with h = relu (lin4 (relu (lin1 h0))),
   the 64 region matrices laid side by side along the columns of one [256, 16384] matrix.
   Every one of them works row by row: row p of the result depends on row p of the input only. -/
import Idealize.ShloMosaic.Lib.ValueIdx
import Idealize.ShloMosaic.PureOps.Ideal

noncomputable section

open scoped BigOperators

namespace Cert.NodeHead

open Idealize.ShloMosaic Idealize.ShloMosaic.ValueIdx

/-- An n x m matrix of extended reals, indexed as the programs index their rank-2 arrays. -/
abbrev Mat (n m : Nat) : Type := (⟨2, ![n, m]⟩ : Shape).Idx → EReal

/-- The float word 0.0 read as an extended real (kept as the word: both programs print the same one). -/
abbrev zeroF : EReal := Ideal.ofBits .f32 0x00000000#32

/-- The matrix product, entry by entry. -/
def prod {n k m : Nat} (a : Mat n k) (w : Mat k m) : Mat n m :=
  fun i => ∑ c : Fin k, a (ix2 (i 0) c) * w (ix2 c (i 1))

/-- A linear layer: the product with the weights plus the bias row. -/
def linear {n k m : Nat} (a : Mat n k) (w : Mat k m) (b : Mat 1 m) : Mat n m :=
  fun i => prod a w i + b (ix2 (0 : Fin 1) (i 1))

/-- The rectifier, entry by entry. -/
def rectify {n m : Nat} (z : Mat n m) : Mat n m := fun i => max (z i) zeroF

/-- A hidden layer: linear, then rectified. -/
def hidden {n k m : Nat} (a : Mat n k) (w : Mat k m) (b : Mat 1 m) : Mat n m := rectify (linear a w b)

/-- The scalar head. -/
def score {n : Nat} (h0 : Mat n 256) (w1 : Mat 256 256) (b1 : Mat 1 256) (w2 : Mat 256 256) (b2 : Mat 1 256)
    (w3 : Mat 256 1) (b3 : Mat 1 1) : Mat n 1 :=
  linear (hidden (hidden h0 w1 b1) w2 b2) w3 b3

/-- Column 256 r + j of the side-by-side region matrices: column j of region r. -/
def regionCol (r : Fin 64) (j : Fin 256) : Fin 16384 := ⟨256 * r.val + j.val, by have := r.isLt; have := j.isLt; omega⟩

/-- The bilinear form of each row with each region's matrix, plus the region's bias. -/
def bilinear {n : Nat} (h : Mat n 256) (wf : Mat 256 16384) (bb : Mat 1 64) : Mat n 64 :=
  fun i => (∑ j : Fin 256, (∑ c : Fin 256, h (ix2 (i 0) c) * wf (ix2 c (regionCol (i 1) j))) * h (ix2 (i 0) j))
    + bb (ix2 (0 : Fin 1) (i 1))

/-- The bilinear head. -/
def regionScores {n : Nat} (h0 : Mat n 256) (w1 : Mat 256 256) (b1 : Mat 1 256) (w4 : Mat 256 256) (b4 : Mat 1 256)
    (wf : Mat 256 16384) (bb : Mat 1 64) : Mat n 64 :=
  bilinear (hidden (hidden h0 w1 b1) w4 b4) wf bb

/-! ## Row by row -/

/-- The rows of `A` picked by `e`, as a matrix. -/
def rowsOf {n' n k : Nat} (e : Fin n' → Fin n) (A : Mat n k) : Mat n' k := fun y => A (ix2 (e (y 0)) (y 1))

theorem rowsOf_ix2 {n' n k : Nat} (e : Fin n' → Fin n) (A : Mat n k) (y : Fin n') (c : Fin k) :
    rowsOf e A (ix2 y c) = A (ix2 (e y) c) := rfl

theorem prod_rowsOf {n' n k m : Nat} (e : Fin n' → Fin n) (A : Mat n k) (w : Mat k m) :
    prod (rowsOf e A) w = rowsOf e (prod A w) := rfl

theorem linear_rowsOf {n' n k m : Nat} (e : Fin n' → Fin n) (A : Mat n k) (w : Mat k m) (b : Mat 1 m) :
    linear (rowsOf e A) w b = rowsOf e (linear A w b) := rfl

theorem hidden_rowsOf {n' n k m : Nat} (e : Fin n' → Fin n) (A : Mat n k) (w : Mat k m) (b : Mat 1 m) :
    hidden (rowsOf e A) w b = rowsOf e (hidden A w b) := rfl

/-- The scalar head of the picked rows is the picked rows of the scalar head. -/
theorem score_rowsOf {n' n : Nat} (e : Fin n' → Fin n) (h0 : Mat n 256) (w1 : Mat 256 256) (b1 : Mat 1 256)
    (w2 : Mat 256 256) (b2 : Mat 1 256) (w3 : Mat 256 1) (b3 : Mat 1 1) :
    score (rowsOf e h0) w1 b1 w2 b2 w3 b3 = rowsOf e (score h0 w1 b1 w2 b2 w3 b3) := by
  unfold score
  rw [hidden_rowsOf, hidden_rowsOf, linear_rowsOf]

theorem bilinear_rowsOf {n' n : Nat} (e : Fin n' → Fin n) (h : Mat n 256) (wf : Mat 256 16384) (bb : Mat 1 64) :
    bilinear (rowsOf e h) wf bb = rowsOf e (bilinear h wf bb) := rfl

/-- The bilinear head of the picked rows is the picked rows of the bilinear head. -/
theorem regionScores_rowsOf {n' n : Nat} (e : Fin n' → Fin n) (h0 : Mat n 256) (w1 : Mat 256 256) (b1 : Mat 1 256)
    (w4 : Mat 256 256) (b4 : Mat 1 256) (wf : Mat 256 16384) (bb : Mat 1 64) :
    regionScores (rowsOf e h0) w1 b1 w4 b4 wf bb = rowsOf e (regionScores h0 w1 b1 w4 b4 wf bb) := by
  unfold regionScores
  rw [hidden_rowsOf, hidden_rowsOf, bilinear_rowsOf]

end Cert.NodeHead

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibRowBlocks.lean ====
/- Two layout facts about matrices handled a block of rows at a time, over generic sizes.

   (1) The product of an [m, k] by a [k, n] matrix accumulated into zero, read at entry (a, b), is the sum over the contracted
       coordinate c of A (a, c) * B (c, b), whatever the operands' float formats (on the extended reals a format is no rounding).
   (2) Two [a, b] matrices laid side by side along the columns into [a, c]: an entry whose column falls in the first b columns
       reads the first matrix there, one whose column is b further reads the second. -/
import Idealize.ShloMosaic.Lib.ValueIdx
import Idealize.ShloMosaic.Lib.Pipeline.Value
import Idealize.ShloMosaic.PureOps.Ideal.Laws
import proofs.«151344_j24326694764553_1_alg».proof.Proof.LibDotRead

noncomputable section

open scoped BigOperators

namespace Cert.RowBlocks

open Idealize.ShloMosaic Idealize.ShloMosaic.ValueIdx

/-- A matmul over a rows-by-columns record into the zero accumulator, read at (a, b): the contraction sum re-indexed by
    the contracted coordinate. -/
theorem matmulZero_apply {m k n : Nat} {φ₁ φ₂ : FTy}
    (w : DotDims.WF ⟨2, ![m, k]⟩ ⟨2, ![k, n]⟩ ⟨2, ![m, n]⟩ [1] [0] [0] [1] [] [])
    (prec : Option ContractPrecision)
    (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) (ix2 a b) = ∑ c : Fin k, A (ix2 a c) * B (ix2 c b) :=
  (Ideal.matmul_constant_zero_apply _ prec A B (ix2 a b)).trans (Cert.DotRead.sum_contr_plain w A B a b)

variable {α : Type}

/-- Side by side along the columns: a column j of the first matrix. -/
theorem catCols_left {a b c : Nat} (x y : (⟨2, ![a, b]⟩ : Shape).Idx → α)
    (h : Shape.Concatenates [(⟨2, ![a, b]⟩ : Shape), ⟨2, ![a, b]⟩] ⟨2, ![a, c]⟩ 1) (p : Fin a) (q : Fin c) (j : Fin b)
    (hj : j.val = q.val) :
    concatenate ⟨2, ![a, c]⟩ 1 [⟨⟨2, ![a, b]⟩, x⟩, ⟨⟨2, ![a, b]⟩, y⟩] h (ix2 p q) = x (ix2 p j) :=
  concatenate_pair_apply_left (t := ⟨2, ![a, c]⟩) (s₁ := ⟨2, ![a, b]⟩) (s₂ := ⟨2, ![a, b]⟩) (1 : Fin 2) x y h (ix2 p q) rfl (ix2 p j)
    (fun ax => by
      match ax with
      | ⟨0, _⟩ => rfl
      | ⟨1, _⟩ => exact hj)

/-- Side by side along the columns: a column j of the second matrix sits b columns further. -/
theorem catCols_right {a b c : Nat} (x y : (⟨2, ![a, b]⟩ : Shape).Idx → α)
    (h : Shape.Concatenates [(⟨2, ![a, b]⟩ : Shape), ⟨2, ![a, b]⟩] ⟨2, ![a, c]⟩ 1) (p : Fin a) (q : Fin c) (j : Fin b)
    (hj : j.val + b = q.val) :
    concatenate ⟨2, ![a, c]⟩ 1 [⟨⟨2, ![a, b]⟩, x⟩, ⟨⟨2, ![a, b]⟩, y⟩] h (ix2 p q) = y (ix2 p j) :=
  concatenate_pair_apply_right (t := ⟨2, ![a, c]⟩) (s₁ := ⟨2, ![a, b]⟩) (s₂ := ⟨2, ![a, b]⟩) (1 : Fin 2) x y h (ix2 p q) rfl rfl (ix2 p j)
    (fun ax hne => by
      match ax with
      | ⟨0, _⟩ => rfl
      | ⟨1, _⟩ => exact absurd rfl hne)
    (by show j.val + b = q.val; exact hj)

end Cert.RowBlocks

end
-- ==== Proof.ConvProduct.lean ====
/- The first pallas_call: x @ conv_w.T by blocks of 2000 rows. Whatever the arrays hold when the call is entered, its
   result array ends as the matrix product of the [10000, 256] input with the [256, 256] weight operand (the host has
   already transposed the weights; narrowing to bf16 is no rounding on the extended reals): block t of the result is the
   product of rows 2000 t … 2000 t + 1999 of the input with the whole weight matrix, and a product works row by row. -/
import proofs.«151344_j24326694764553_1_alg».proof.Proof.Gen.KernelIdeal.Frame
import proofs.«151344_j24326694764553_1_alg».proof.Proof.Spec
import proofs.«151344_j24326694764553_1_alg».proof.Proof.LibRowBlocks
import Idealize.ShloMosaic.Lib.Pipeline.Value

set_option maxRecDepth 16384

noncomputable section

namespace Cert.ConvProduct

open Cert.KernelIdeal Cert.KernelIdeal.Gen Cert.NodeHead
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The body's one store: the product of the loaded row block with the loaded weights. -/
theorem body_eq (x : Vec Ideal S2000x256 .f32) (w : Vec Ideal S256x256 .bf16) : k0_pay1 x w = prod (n := 2000) x w := by
  funext i
  obtain ⟨p, q, rfl⟩ : ∃ (p : Fin 2000) (q : Fin 256), i = ix2 p q := ⟨i 0, i 1, eq_ix2 i⟩
  unfold k0_pay1
  refine (Cert.RowBlocks.matmulZero_apply _ none _ _ p q).trans ?_
  rw [shapeCast_self]
  rfl

/-- The index maps over the five grid points: the input and the result move down one row block per point, the weights
    stay. -/
theorem blockIdx : ∀ t : Fin cfg0.N, t.val < 5
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem blockOnto : ∀ q : Fin 5, ∃ t : Fin cfg0.N, t.val = q.val :=
  (by decide +kernel : ∀ q : Fin 5, ∃ t : Fin grid0.N, t.val = q.val)

/-- Row y of block t is row 2000 t + y of the array. -/
def rowAt (t : Fin cfg0.N) (y : Fin 2000) : Fin 10000 :=
  ⟨2000 * t.val + y.val, by have := (blockIdx t).1; have := y.isLt; omega⟩

theorem inBlock (c : Dev nD) (t : Fin cfg0.N) : iblk0 V c 0 t = rowsOf (rowAt t) (V c main_arg0) := by
  obtain ⟨-, e0, e1, -⟩ := blockIdx t
  funext y
  show V c main_arg0 (((cfg0.win 0).blk t).view.emb y) = V c main_arg0 (ix2 (rowAt t (y 0)) (y 1))
  refine congrArg _ (funext fun a => Fin.ext ?_)
  match a with
  | ⟨0, _⟩ => show win0_0.index t (0 : Fin 2) * 2000 + 1 * (y 0).val = 2000 * t.val + (y 0).val; omega
  | ⟨1, _⟩ => show win0_0.index t (1 : Fin 2) * 256 + 1 * (y 1).val = (y 1).val; omega

theorem weightBlock (c : Dev nD) (t : Fin cfg0.N) : iblk0 V c 1 t = V c main_v1 := by
  obtain ⟨-, -, -, e0, e1, -⟩ := blockIdx t
  funext y
  show V c main_v1 (((cfg0.win 1).blk t).view.emb y) = V c main_v1 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

theorem outBlock (t : Fin cfg0.N) (G : Mat 10000 256) :
    ((cfg0.win 2).blk t).view.read (Elt Ideal) G = rowsOf (rowAt t) G := by
  obtain ⟨-, -, -, -, -, e0, e1⟩ := blockIdx t
  funext y
  show G (((cfg0.win 2).blk t).view.emb y) = G (ix2 (rowAt t (y 0)) (y 1))
  refine congrArg _ (funext fun a => Fin.ext ?_)
  match a with
  | ⟨0, _⟩ => show win0_2.index t (0 : Fin 2) * 2000 + 1 * (y 0).val = 2000 * t.val + (y 0).val; omega
  | ⟨1, _⟩ => show win0_2.index t (1 : Fin 2) * 256 + 1 * (y 1).val = (y 1).val; omega

/-- What point t writes back is block t of the product of the arrays as the call finds them. -/
theorem written (c : Dev nD) (t : Fin cfg0.N) :
    (dat0 (F := Ideal) V c).flushed 2 t
      = ((cfg0.win 2).blk t).view.read (Elt Ideal) (prod (n := 10000) (V c main_arg0) (V c main_v1)) := by
  show (cfg0.win 2).cut (grid0.coords t) ((dat0 V c).after 2 t) = _
  rw [after0_2]
  unfold out0_2
  rw [View.canon_unit_zero zeros2]
  simp only [View.ld_unit_zero (S := S2000x256) zeros2, View.ld_unit_zero (S := S256x256) zeros2]
  rw [body_eq, inBlock, weightBlock, outBlock, prod_rowsOf]
  rfl

theorem inResultBlock (t : Fin cfg0.N) (i : S10000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v2).slice (win0_2.rect t)).set ↔ _
  rw [View.set_slice_whole, Rect.mem_set_unit]
  exact Iff.rfl

/-- Every entry of the result lies in the block of the point its row names. -/
theorem covered (i : S10000x256.Idx) : ∃ t : Fin cfg0.N, (cfg0.win 2).flush t = true ∧ i ∈ ((cfg0.win 2).blk t).view.set := by
  have hi0 : (i 0).val < 10000 := (i 0).isLt
  have hi1 : (i 1).val < 256 := (i 1).isLt
  obtain ⟨t, ht⟩ := blockOnto ⟨(i 0).val / 2000, by omega⟩
  have ht' : t.val = (i 0).val / 2000 := ht
  obtain ⟨-, -, -, -, -, e0, e1⟩ := blockIdx t
  refine ⟨t, flush0_2 t, ?_⟩
  rw [inResultBlock]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The result array after the call: the product of the input array with the weight operand, as the call found them. -/
theorem result (c : Dev nD) :
    (dat0 (F := Ideal) V c).arrAt 2 cfg0.N = prod (n := 10000) (V c main_arg0) (V c main_v1) :=
  (dat0 V c).arrAt_eq_of_cover 2 _ (fun t _ => written V c t) covered

end Cert.ConvProduct

end
-- ==== Proof.LibKeepdims.lean ====
/- Reading a keepdims row reduction at coordinates: a sum along the rows of an [a, b] array as a sum over the
   column coordinate, the [a] result cast to a column [a, 1], and that column broadcast back over [a, b]. These are
   the three layout steps of every `jnp.sum(x, axis=-1, keepdims=True)` followed by a broadcast against x. -/
import Idealize.ShloMosaic.Lib.ValueIdx
import Idealize.ShloMosaic.Lib.Pipeline.Value
import Idealize.ShloMosaic.PureOps.Ideal.Laws

noncomputable section

open scoped BigOperators

namespace Cert.Keepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- On the extended reals a float sum along the rows of an `[a, b]` array, read at row `p`, is the sum over the
    column coordinate of the row's entries. The accumulator's two side conditions are taken as the printed programs
    carry them (any proofs of those two propositions). -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.Keepdims

end
-- ==== Proof.KernelLayers.lean ====
/- The kernel body's spellings of the specification's layers, over generic sizes and the extended reals:
   a product accumulated into zero plus a one-row bias repeated down the rows is the linear layer; the maximum with a
   splat zero is the rectifier; narrowing an array to a shorter float format changes nothing; a row sum kept as a
   column, read at (p, 0), is the sum of row p. -/
import Idealize.ShloMosaic.Lib.ValueIdx
import Idealize.ShloMosaic.Lib.Pipeline.Value
import Idealize.ShloMosaic.PureOps.Ideal.Laws
import proofs.«151344_j24326694764553_1_alg».proof.Proof.Spec
import proofs.«151344_j24326694764553_1_alg».proof.Proof.LibRowBlocks
import proofs.«151344_j24326694764553_1_alg».proof.Proof.LibKeepdims

noncomputable section

open scoped BigOperators

namespace Cert.KernelLayers

open Cert.NodeHead
open Idealize.ShloMosaic Idealize.ShloMosaic.ValueIdx

/-- One row repeated down n rows reads, at (p, j), the row at j. -/
theorem rowRepeat_apply {α : Type} {n m : Nat} (v : (⟨2, ![1, m]⟩ : Shape).Idx → α)
    (hb : (⟨2, ![1, m]⟩ : Shape).Broadcasts ⟨2, ![n, m]⟩) (p : Fin n) (j : Fin m) :
    broadcastTo ⟨2, ![n, m]⟩ v hb (ix2 p j) = v (ix2 (0 : Fin 1) j) := by
  refine broadcastTo_apply v hb (ix2 p j) (ix2 (0 : Fin 1) j) ?_
  intro ax
  match ax with
  | ⟨0, _⟩ => rfl
  | ⟨1, _⟩ =>
    show j.val = if m = 1 then 0 else j.val
    split
    · have := j.isLt; omega
    · rfl

/-- A product accumulated into zero, plus the bias row repeated down the rows: the linear layer. -/
theorem linear_eq {n k m : Nat} {φ₁ φ₂ : FTy}
    (wf : DotDims.WF ⟨2, ![n, k]⟩ ⟨2, ![k, m]⟩ ⟨2, ![n, m]⟩ [1] [0] [0] [1] [] [])
    (A : FVec Ideal ⟨2, ![n, k]⟩ φ₁) (W : FVec Ideal ⟨2, ![k, m]⟩ φ₂) (b : FVec Ideal ⟨2, ![1, m]⟩ .f32)
    (hb : (⟨2, ![1, m]⟩ : Shape).Broadcasts ⟨2, ![n, m]⟩) :
    addf (matmul (⟨[1], [0], [0], [1], [], [], wf⟩ : DotDims ⟨2, ![n, k]⟩ ⟨2, ![k, m]⟩ ⟨2, ![n, m]⟩) none A W
        (constant (F := Ideal) ⟨2, ![n, m]⟩ .f32 0x00000000#32)) (broadcastTo ⟨2, ![n, m]⟩ b hb)
      = linear (n := n) A W b := by
  funext i
  obtain ⟨p, q, rfl⟩ : ∃ (p : Fin n) (q : Fin m), i = ix2 p q := ⟨i 0, i 1, eq_ix2 i⟩
  show matmul (⟨[1], [0], [0], [1], [], [], wf⟩ : DotDims ⟨2, ![n, k]⟩ ⟨2, ![k, m]⟩ ⟨2, ![n, m]⟩) none A W
        (constant (F := Ideal) ⟨2, ![n, m]⟩ .f32 0x00000000#32) (ix2 p q) + broadcastTo ⟨2, ![n, m]⟩ b hb (ix2 p q)
      = (∑ c : Fin k, A (ix2 p c) * W (ix2 c q)) + b (ix2 (0 : Fin 1) q)
  rw [Cert.RowBlocks.matmulZero_apply wf none A W p q, rowRepeat_apply b hb p q]

/-- The maximum with a splat zero: the rectifier. -/
theorem rectify_eq {n m : Nat} (z : FVec Ideal ⟨2, ![n, m]⟩ .f32) :
    maximumf z (broadcast ⟨2, ![n, m]⟩ (Scalar.ofBits (F := Ideal) .f32 0x00000000#32)) = rectify (n := n) z := rfl

/-- A row sum kept as a column, read at (p, u): the sum over the row. -/
theorem rowSumCol_apply {n m : Nat} (src : FVec Ideal ⟨2, ![n, m]⟩ .f32) (acc : BitVec (FTy.bits .f32))
    (h : (⟨2, ![n, m]⟩ : Shape).Reduces [1] ⟨1, ![n]⟩) (hφ : FKind.Formats .f32) (hacc : acc = FKind.add.neutral .f32 hφ)
    (hc : (⟨1, ![n]⟩ : Shape).ShapeCasts ⟨2, ![n, 1]⟩) (p : Fin n) (u : Fin 1) :
    shapeCast ⟨2, ![n, 1]⟩ (multiReduction .add [1] ⟨1, ![n]⟩ src acc h hφ hacc) hc (ix2 p u) = ∑ j : Fin m, src (ix2 p j) := by
  rw [Cert.Keepdims.shapeCast_a_a1_apply _ hc p u, Cert.Keepdims.rowSum_apply src acc h hφ hacc p]

end Cert.KernelLayers

end
-- ==== Proof.ScorePayload.lean ====
/- The second pallas_call's first store, as a function of the blocks the body loads: the scalar head of the loaded row
   block. lin1 and lin2 are each a product accumulated into zero plus a bias row repeated down the rows, rectified and
   narrowed (narrowing is no rounding on the extended reals); lin3 is one more such product plus its one-entry bias. -/
import proofs.«151344_j24326694764553_1_alg».proof.Proof.Gen.KernelIdeal.Skeleton
import proofs.«151344_j24326694764553_1_alg».proof.Proof.Spec
import proofs.«151344_j24326694764553_1_alg».proof.Proof.KernelLayers

set_option maxRecDepth 16384

noncomputable section

namespace Cert.ScorePayload

open Cert.KernelIdeal Cert.KernelIdeal.Gen Cert.NodeHead Cert.KernelLayers
open Idealize.ShloMosaic Idealize.ShloMosaic.ValueIdx

/-- The first hidden layer of the loaded row block: relu (rows · W1 + b1). -/
theorem hidden1 (v0 : Vec Ideal S400x256 .f32) (v3 : Vec Ideal S256x256 .bf16) (v6 : Vec Ideal S1x256 .f32) :
    k1_pay1 v0 v3 v6 = hidden (n := 400) v0 v3 v6 := by
  unfold k1_pay1
  simp only [shapeCast_self]
  exact congrArg (rectify (n := 400)) (linear_eq _ v0 v3 v6 _)

/-- What the body stores into the first result's block: lin3 (relu (lin2 (relu (lin1 rows)))). -/
theorem score_eq (v0 : Vec Ideal S400x256 .f32) (v3 : Vec Ideal S256x256 .bf16) (v6 : Vec Ideal S1x256 .f32)
    (v13 : Vec Ideal S256x256 .bf16) (v16 : Vec Ideal S1x256 .f32) (v23 : Vec Ideal S256x1 .bf16) (v26 : Vec Ideal S1x1 .f32) :
    k1_pay2 v0 v3 v6 v13 v16 v23 v26 = score (n := 400) v0 v3 v6 v13 v16 v23 v26 := by
  unfold k1_pay2
  simp only [shapeCast_self]
  rw [hidden1]
  unfold score
  refine (linear_eq _ _ v23 v26 _).trans ?_
  refine congrArg (fun z => linear (n := 400) z v23 v26) ?_
  exact congrArg (rectify (n := 400)) (linear_eq _ (hidden (n := 400) v0 v3 v6) v13 v16 _)

/-- The second hidden layer feeding the bilinear head: relu (h1 · W4 + b4), with h1 the first hidden layer. -/
theorem hidden3 (v0 : Vec Ideal S400x256 .f32) (v3 : Vec Ideal S256x256 .bf16) (v6 : Vec Ideal S1x256 .f32)
    (v31 : Vec Ideal S256x256 .bf16) (v34 : Vec Ideal S1x256 .f32) :
    k1_pay4 (k1_pay3 v0 v3 v6 v31) v34 = hidden (n := 400) (hidden (n := 400) v0 v3 v6) v31 v34 := by
  unfold k1_pay4 k1_pay3
  simp only [shapeCast_self]
  rw [hidden1]
  exact congrArg (rectify (n := 400)) (linear_eq _ (hidden (n := 400) v0 v3 v6) v31 v34 _)

end Cert.ScorePayload

end
-- ==== Proof.BilinearPayload.lean ====
/- The second pallas_call's second store, as a function of the blocks the body loads: the bilinear head of the loaded
   row block. The body takes, for each of the 64 regions r, the 256 columns 256 r … 256 r + 255 of the side-by-side
   weight block, multiplies the rows of h3 = relu (lin4 (relu (lin1 rows))) by them, multiplies the result by h3 entry
   by entry and sums each row into one column; the 64 columns are laid side by side and the bias row is added. Read at
   (p, r) that is Σ_j (Σ_c h3 (p, c) · W (c, 256 r + j)) · h3 (p, j) + b (r). -/
import proofs.«151344_j24326694764553_1_alg».proof.Proof.Gen.KernelIdeal.Frame
import proofs.«151344_j24326694764553_1_alg».proof.Proof.Spec
import proofs.«151344_j24326694764553_1_alg».proof.Proof.KernelLayers
import proofs.«151344_j24326694764553_1_alg».proof.Proof.ScorePayload

set_option maxRecDepth 16384

noncomputable section

open scoped BigOperators

namespace Cert.BilinearPayload
open Cert.KernelIdeal Cert.KernelIdeal.Gen Cert.NodeHead Cert.KernelLayers Cert.ScorePayload
open Idealize.ShloMosaic Idealize.ShloMosaic.TcCoe Idealize.ShloMosaic.ValueIdx Idealize.SL.Sem

/-- One region's column of the result: the rows of h3 against the region's matrix, times h3 entry by entry, summed along the row. -/
abbrev piece (h3 : FVec Ideal S400x256 .f32) (h3b : FVec Ideal S400x256 .bf16) (w : Vec Ideal S256x256 .bf16) : FVec Ideal S400x1 .f32 :=
  k1_pay11 (F := Ideal) h3 h3b w

theorem piece_apply (h3 : FVec Ideal S400x256 .f32) (h3b : FVec Ideal S400x256 .bf16) (w : Vec Ideal S256x256 .bf16) (p : Fin 400) (u : Fin 1) :
    piece h3 h3b w (ix2 p u) = ∑ j : Fin 256, (∑ c : Fin 256, h3b (ix2 p c) * w (ix2 c j)) * h3 (ix2 p j) := by
  show k1_pay11 (F := Ideal) h3 h3b w (ix2 p u) = _
  unfold k1_pay11
  refine (rowSumCol_apply (n := 400) (m := 256) _ _ _ _ _ _ p u).trans ?_
  refine Finset.sum_congr rfl fun j _ => ?_
  rw [shapeCast_self]
  exact congrArg (· * h3 (ix2 p j)) (Cert.RowBlocks.matmulZero_apply _ none h3b w p j)

theorem pay6_eq (v33 : FVec Ideal S400x256 .f32) (v34 : Vec Ideal S1x256 .f32) (w : Vec Ideal S256x256 .bf16) :
    k1_pay6 v33 v34 w = piece (k1_pay4 v33 v34) (k1_pay5 v33 v34) w := rfl
theorem pay11_eq (v39 : FVec Ideal S400x256 .f32) (v40 : FVec Ideal S400x256 .bf16) (w : Vec Ideal S256x256 .bf16) :
    k1_pay11 v39 v40 w = piece v39 v40 w := rfl

theorem regionRect_inb (r : Fin 64) : ∀ a : Fin 2, (![0, 256 * r.val] : Fin 2 → Nat) a + S256x256.size a ≤ S256x16384.size a := by
  intro a
  have := r.isLt
  match a with
  | ⟨0, _⟩ => show 0 + 256 ≤ 256; omega
  | ⟨1, _⟩ => show 256 * r.val + 256 ≤ 16384; omega

/-- Region r's 256 columns inside the side-by-side weight block. -/
def regionRect (r : Fin 64) : Rect S256x16384 := Rect.unit (s := S256x16384) ![0, 256 * r.val] S256x256.size (regionRect_inb r)

theorem ld_region (x9 : Vec Ideal S256x16384 .bf16) (r : Fin 64) (c j : Fin 256) :
    View.ld x9 (regionRect r) (ix2 c j) = x9 (ix2 c (regionCol r j)) := by
  show x9 ((regionRect r).emb (ix2 c j)) = _
  refine congrArg x9 (funext fun a => Fin.ext ?_)
  match a with
  | ⟨0, _⟩ => show 0 + 1 * c.val = c.val; omega
  | ⟨1, _⟩ => show 256 * r.val + 1 * j.val = 256 * r.val + j.val; omega

theorem zeros2 : (![0, 0] : Fin 2 → Nat) = fun _ => 0 := funext fun a => by fin_cases a <;> rfl

/-- Column r of the result before the bias: region r's piece. -/
abbrev cols (h3 : FVec Ideal S400x256 .f32) (h3b : FVec Ideal S400x256 .bf16) (x9 : Vec Ideal S256x16384 .bf16) (r : Fin 64) :
    FVec Ideal S400x1 .f32 :=
  piece h3 h3b (View.ld x9 (regionRect r))

/-- 64 one-column pieces side by side, read at (p, r): piece r at (p, 0). -/
theorem cat_apply {α : Type} (f : Fin 64 → (S400x1.Idx → α))
    (h : Shape.Concatenates ((List.ofFn fun n : Fin 64 => (⟨S400x1, f n⟩ : (s : Shape) × (s.Idx → α))).map (·.1)) S400x64 1)
    (p : Fin 400) (r : Fin 64) :
    concatenate S400x64 1 (List.ofFn fun n : Fin 64 => (⟨S400x1, f n⟩ : (s : Shape) × (s.Idx → α))) h (ix2 p r) = f r (ix2 p (0 : Fin 1)) :=
  concatenate_ofFn_unit_apply (t := S400x64) (s₁ := S400x1) (1 : Fin 2) f h rfl rfl (ix2 p r) r rfl (ix2 p (0 : Fin 1))
    (fun b hb => by
      match b with
      | ⟨0, _⟩ => rfl
      | ⟨1, _⟩ => exact absurd rfl hb)

theorem out_apply (x0 : Vec Ideal S400x256 .f32) (x1 : Vec Ideal S256x256 .bf16) (x2 : Vec Ideal S1x256 .f32) (x3 : Vec Ideal S256x256 .bf16) (x4 : Vec Ideal S1x256 .f32) (x5 : Vec Ideal S256x1 .bf16) (x6 : Vec Ideal S1x1 .f32) (x7 : Vec Ideal S256x256 .bf16) (x8 : Vec Ideal S1x256 .f32) (x9 : Vec Ideal S256x16384 .bf16) (x10 : Vec Ideal S1x64 .f32)
    (p : Fin 400) (r : Fin 64) :
    out1_12 x0 x1 x2 x3 x4 x5 x6 x7 x8 x9 x10 (ix2 p r)
      = cols (k1_pay4 (k1_pay3 x0 x1 x2 x7) x8) (k1_pay5 (k1_pay3 x0 x1 x2 x7) x8) x9 r (ix2 p (0 : Fin 1)) + x10 (ix2 (0 : Fin 1) r) := by
  unfold out1_12
  rw [View.canon_unit_zero zeros2]
  simp only [View.ld_unit_zero (S := S400x256) zeros2, View.ld_unit_zero (S := S256x256) zeros2, View.ld_unit_zero (S := S1x256) zeros2, View.ld_unit_zero (S := S1x64) zeros2]
  unfold k1_pay65
  change addf (F := Ideal) (φ := .f32) (concatenate S400x64 1 (List.ofFn fun n : Fin 64 => (⟨S400x1, cols (k1_pay4 (k1_pay3 x0 x1 x2 x7) x8) (k1_pay5 (k1_pay3 x0 x1 x2 x7) x8) x9 n⟩ : (s : Shape) × (s.Idx → EReal))) _) (broadcastTo S400x64 (shapeCast S1x64 (x10 : S1x64.Idx → EReal) shapeCasts_S1x64_S1x64) broadcasts_S1x64_S400x64) (ix2 p r) = _
  show concatenate S400x64 1 _ _ (ix2 p r) + broadcastTo S400x64 (shapeCast S1x64 (x10 : S1x64.Idx → EReal) shapeCasts_S1x64_S1x64) broadcasts_S1x64_S400x64 (ix2 p r) = _
  refine congrArg₂ (· + ·) (cat_apply (fun n => cols (k1_pay4 (k1_pay3 x0 x1 x2 x7) x8) (k1_pay5 (k1_pay3 x0 x1 x2 x7) x8) x9 n) _ p r) ?_
  rw [shapeCast_self]
  exact rowRepeat_apply (n := 400) (m := 64) x10 _ p r

/-- What the body leaves in the second result's block: the bilinear head of the loaded rows. -/
theorem regionScores_eq (x0 : Vec Ideal S400x256 .f32) (x1 : Vec Ideal S256x256 .bf16) (x2 : Vec Ideal S1x256 .f32) (x3 : Vec Ideal S256x256 .bf16) (x4 : Vec Ideal S1x256 .f32) (x5 : Vec Ideal S256x1 .bf16) (x6 : Vec Ideal S1x1 .f32) (x7 : Vec Ideal S256x256 .bf16) (x8 : Vec Ideal S1x256 .f32) (x9 : Vec Ideal S256x16384 .bf16) (x10 : Vec Ideal S1x64 .f32) :
    out1_12 x0 x1 x2 x3 x4 x5 x6 x7 x8 x9 x10 = regionScores (n := 400) x0 x1 x2 x7 x8 x9 x10 := by
  funext i
  obtain ⟨p, r, rfl⟩ : ∃ (p : Fin 400) (r : Fin 64), i = ix2 p r := ⟨i 0, i 1, eq_ix2 i⟩
  rw [out_apply]
  refine (congrArg (· + x10 (ix2 (0 : Fin 1) r)) (piece_apply _ _ _ p (0 : Fin 1))).trans ?_
  have narrow : ∀ i, k1_pay5 (k1_pay3 x0 x1 x2 x7) x8 i = k1_pay4 (k1_pay3 x0 x1 x2 x7) x8 i := fun _ => rfl
  simp only [narrow]
  rw [hidden3]
  exact congrArg (· + x10 (ix2 (0 : Fin 1) r)) (Finset.sum_congr rfl fun j _ =>
    congrArg (· * hidden (n := 400) (hidden (n := 400) x0 x1 x2) x7 x8 (ix2 p j)) (Finset.sum_congr rfl fun c _ =>
      congrArg (hidden (n := 400) (hidden (n := 400) x0 x1 x2) x7 x8 (ix2 p c) * ·) (ld_region x9 r c j)))

/-- What the body leaves in the first result's block: the scalar head of the loaded rows. -/
theorem score_out_eq (x0 : Vec Ideal S400x256 .f32) (x1 : Vec Ideal S256x256 .bf16) (x2 : Vec Ideal S1x256 .f32) (x3 : Vec Ideal S256x256 .bf16) (x4 : Vec Ideal S1x256 .f32) (x5 : Vec Ideal S256x1 .bf16) (x6 : Vec Ideal S1x1 .f32) (x7 : Vec Ideal S256x256 .bf16) (x8 : Vec Ideal S1x256 .f32) (x9 : Vec Ideal S256x16384 .bf16) (x10 : Vec Ideal S1x64 .f32) :
    out1_11 x0 x1 x2 x3 x4 x5 x6 x7 x8 x9 x10 = score (n := 400) x0 x1 x2 x3 x4 x5 x6 := by
  unfold out1_11
  rw [View.canon_unit_zero zeros2]
  simp only [View.ld_unit_zero (S := S400x256) zeros2, View.ld_unit_zero (S := S256x256) zeros2, View.ld_unit_zero (S := S1x256) zeros2, View.ld_unit_zero (S := S256x1) zeros2, View.ld_unit_zero (S := S1x1) zeros2]
  exact score_eq x0 x1 x2 x3 x4 x5 x6

end Cert.BilinearPayload

end
-- ==== Proof.HeadsGrid.lean ====
/- The second pallas_call's grid: 25 points, the input and the two results at row block t at point t. Row y of block t
   is row 400 t + y of the array, so the input's block at point t is the 400 rows from 400 t on. -/
import proofs.«151344_j24326694764553_1_alg».proof.Proof.Gen.KernelIdeal.Frame
import proofs.«151344_j24326694764553_1_alg».proof.Proof.Spec
import Idealize.ShloMosaic.Lib.Pipeline.Value

set_option maxRecDepth 16384

noncomputable section

namespace Cert.HeadsCall

open Cert.KernelIdeal Cert.KernelIdeal.Gen Cert.NodeHead
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The input and the two results are at row block t at point t. -/
theorem moves : ∀ t : Fin cfg1.N, t.val < 25
    ∧ win1_0.index t (0 : Fin 2) = t.val ∧ win1_0.index t (1 : Fin 2) = 0
    ∧ win1_11.index t (0 : Fin 2) = t.val ∧ win1_11.index t (1 : Fin 2) = 0
    ∧ win1_12.index t (0 : Fin 2) = t.val ∧ win1_12.index t (1 : Fin 2) = 0 :=
  (by decide +kernel : ∀ t : Fin grid1.N, _)

/-- Every row block is some point's. -/
theorem pointOnto : ∀ q : Fin 25, ∃ t : Fin cfg1.N, t.val = q.val :=
  (by decide +kernel : ∀ q : Fin 25, ∃ t : Fin grid1.N, t.val = q.val)

/-- Row y of block t is row 400 t + y of the array. -/
def rowAt (t : Fin cfg1.N) (y : Fin 400) : Fin 10000 :=
  ⟨400 * t.val + y.val, by have := (moves t).1; have := y.isLt; omega⟩

/-- The input's block at point t: the 400 rows of the array from row 400 t on. -/
theorem inBlock (c : Dev nD) (t : Fin cfg1.N) : iblk1 V c 0 t = rowsOf (rowAt t) (V c main_v59) := by
  obtain ⟨-, e0, e1, -⟩ := moves t
  funext y
  show V c main_v59 (((cfg1.win 0).blk t).view.emb y) = V c main_v59 (ix2 (rowAt t (y 0)) (y 1))
  refine congrArg _ (funext fun a => Fin.ext ?_)
  match a with
  | ⟨0, _⟩ => show win1_0.index t (0 : Fin 2) * 400 + 1 * (y 0).val = 400 * t.val + (y 0).val; omega
  | ⟨1, _⟩ => show win1_0.index t (1 : Fin 2) * 256 + 1 * (y 1).val = (y 1).val; omega

end Cert.HeadsCall

end
-- ==== Proof.OperandBlocks.lean ====
import proofs.«151344_j24326694764553_1_alg».proof.Proof.HeadsGrid
import Idealize.ShloMosaic.Lib.Pipeline.Value

set_option maxRecDepth 16384

noncomputable section

namespace Cert.HeadsCall

open Cert.KernelIdeal Cert.KernelIdeal.Gen Cert.NodeHead
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The operands loaded whole at every point -/

theorem stays1 : ∀ t : Fin cfg1.N, win1_1.index t (0 : Fin 2) = 0 ∧ win1_1.index t (1 : Fin 2) = 0 :=
  (by decide +kernel : ∀ t : Fin grid1.N, _)

theorem whole1 (c : Dev nD) (t : Fin cfg1.N) : iblk1 V c 1 t = V c main_v61 := by
  obtain ⟨e0, e1⟩ := stays1 t
  funext y
  show V c main_v61 (((cfg1.win 1).blk t).view.emb y) = V c main_v61 y
  refine congrArg _ (funext fun a => Fin.ext ?_)
  match a with
  | ⟨0, _⟩ => show win1_1.index t (0 : Fin 2) * 256 + 1 * (y 0).val = (y 0).val; omega
  | ⟨1, _⟩ => show win1_1.index t (1 : Fin 2) * 256 + 1 * (y 1).val = (y 1).val; omega

theorem stays2 : ∀ t : Fin cfg1.N, win1_2.index t (0 : Fin 2) = 0 ∧ win1_2.index t (1 : Fin 2) = 0 :=
  (by decide +kernel : ∀ t : Fin grid1.N, _)

theorem whole2 (c : Dev nD) (t : Fin cfg1.N) : iblk1 V c 2 t = V c main_v71 := by
  obtain ⟨e0, e1⟩ := stays2 t
  funext y
  show V c main_v71 (((cfg1.win 2).blk t).view.emb y) = V c main_v71 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 256 + 1 * (y 1).val = (y 1).val; omega

theorem stays3 : ∀ t : Fin cfg1.N, win1_3.index t (0 : Fin 2) = 0 ∧ win1_3.index t (1 : Fin 2) = 0 :=
  (by decide +kernel : ∀ t : Fin grid1.N, _)

theorem whole3 (c : Dev nD) (t : Fin cfg1.N) : iblk1 V c 3 t = V c main_v63 := by
  obtain ⟨e0, e1⟩ := stays3 t
  funext y
  show V c main_v63 (((cfg1.win 3).blk t).view.emb y) = V c main_v63 y
  refine congrArg _ (funext fun a => Fin.ext ?_)
  match a with
  | ⟨0, _⟩ => show win1_3.index t (0 : Fin 2) * 256 + 1 * (y 0).val = (y 0).val; omega
  | ⟨1, _⟩ => show win1_3.index t (1 : Fin 2) * 256 + 1 * (y 1).val = (y 1).val; omega

theorem stays4 : ∀ t : Fin cfg1.N, win1_4.index t (0 : Fin 2) = 0 ∧ win1_4.index t (1 : Fin 2) = 0 :=
  (by decide +kernel : ∀ t : Fin grid1.N, _)

theorem whole4 (c : Dev nD) (t : Fin cfg1.N) : iblk1 V c 4 t = V c main_v72 := by
  obtain ⟨e0, e1⟩ := stays4 t
  funext y
  show V c main_v72 (((cfg1.win 4).blk t).view.emb y) = V c main_v72 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 256 + 1 * (y 1).val = (y 1).val; omega

theorem stays5 : ∀ t : Fin cfg1.N, win1_5.index t (0 : Fin 2) = 0 ∧ win1_5.index t (1 : Fin 2) = 0 :=
  (by decide +kernel : ∀ t : Fin grid1.N, _)

theorem whole5 (c : Dev nD) (t : Fin cfg1.N) : iblk1 V c 5 t = V c main_v65 := by
  obtain ⟨e0, e1⟩ := stays5 t
  funext y
  show V c main_v65 (((cfg1.win 5).blk t).view.emb y) = V c main_v65 y
  refine congrArg _ (funext fun a => Fin.ext ?_)
  match a with
  | ⟨0, _⟩ => show win1_5.index t (0 : Fin 2) * 256 + 1 * (y 0).val = (y 0).val; omega
  | ⟨1, _⟩ => show win1_5.index t (1 : Fin 2) * 1 + 1 * (y 1).val = (y 1).val; omega

theorem stays6 : ∀ t : Fin cfg1.N, win1_6.index t (0 : Fin 2) = 0 ∧ win1_6.index t (1 : Fin 2) = 0 :=
  (by decide +kernel : ∀ t : Fin grid1.N, _)

theorem whole6 (c : Dev nD) (t : Fin cfg1.N) : iblk1 V c 6 t = V c main_v73 := by
  obtain ⟨e0, e1⟩ := stays6 t
  funext y
  show V c main_v73 (((cfg1.win 6).blk t).view.emb y) = V c main_v73 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 1 + 1 * (y 1).val = (y 1).val; omega

theorem stays7 : ∀ t : Fin cfg1.N, win1_7.index t (0 : Fin 2) = 0 ∧ win1_7.index t (1 : Fin 2) = 0 :=
  (by decide +kernel : ∀ t : Fin grid1.N, _)

theorem whole7 (c : Dev nD) (t : Fin cfg1.N) : iblk1 V c 7 t = V c main_v67 := by
  obtain ⟨e0, e1⟩ := stays7 t
  funext y
  show V c main_v67 (((cfg1.win 7).blk t).view.emb y) = V c main_v67 y
  refine congrArg _ (funext fun a => Fin.ext ?_)
  match a with
  | ⟨0, _⟩ => show win1_7.index t (0 : Fin 2) * 256 + 1 * (y 0).val = (y 0).val; omega
  | ⟨1, _⟩ => show win1_7.index t (1 : Fin 2) * 256 + 1 * (y 1).val = (y 1).val; omega

theorem stays8 : ∀ t : Fin cfg1.N, win1_8.index t (0 : Fin 2) = 0 ∧ win1_8.index t (1 : Fin 2) = 0 :=
  (by decide +kernel : ∀ t : Fin grid1.N, _)

theorem whole8 (c : Dev nD) (t : Fin cfg1.N) : iblk1 V c 8 t = V c main_v74 := by
  obtain ⟨e0, e1⟩ := stays8 t
  funext y
  show V c main_v74 (((cfg1.win 8).blk t).view.emb y) = V c main_v74 y
  refine congrArg _ (funext fun a => Fin.ext ?_)
  match a with
  | ⟨0, _⟩ => show win1_8.index t (0 : Fin 2) * 1 + 1 * (y 0).val = (y 0).val; omega
  | ⟨1, _⟩ => show win1_8.index t (1 : Fin 2) * 256 + 1 * (y 1).val = (y 1).val; omega

theorem stays9 : ∀ t : Fin cfg1.N, win1_9.index t (0 : Fin 2) = 0 ∧ win1_9.index t (1 : Fin 2) = 0 :=
  (by decide +kernel : ∀ t : Fin grid1.N, _)

theorem whole9 (c : Dev nD) (t : Fin cfg1.N) : iblk1 V c 9 t = V c main_v70 := by
  obtain ⟨e0, e1⟩ := stays9 t
  funext y
  show V c main_v70 (((cfg1.win 9).blk t).view.emb y) = V c main_v70 y
  refine congrArg _ (funext fun a => Fin.ext ?_)
  match a with
  | ⟨0, _⟩ => show win1_9.index t (0 : Fin 2) * 256 + 1 * (y 0).val = (y 0).val; omega
  | ⟨1, _⟩ => show win1_9.index t (1 : Fin 2) * 16384 + 1 * (y 1).val = (y 1).val; omega

theorem stays10 : ∀ t : Fin cfg1.N, win1_10.index t (0 : Fin 2) = 0 ∧ win1_10.index t (1 : Fin 2) = 0 :=
  (by decide +kernel : ∀ t : Fin grid1.N, _)

theorem whole10 (c : Dev nD) (t : Fin cfg1.N) : iblk1 V c 10 t = V c main_v75 := by
  obtain ⟨e0, e1⟩ := stays10 t
  funext y
  show V c main_v75 (((cfg1.win 10).blk t).view.emb y) = V c main_v75 y
  refine congrArg _ (funext fun a => Fin.ext ?_)
  match a with
  | ⟨0, _⟩ => show win1_10.index t (0 : Fin 2) * 1 + 1 * (y 0).val = (y 0).val; omega
  | ⟨1, _⟩ => show win1_10.index t (1 : Fin 2) * 64 + 1 * (y 1).val = (y 1).val; omega

/-! ## The results written a row block at a time -/

theorem outBlock11 (t : Fin cfg1.N) (G : Mat 10000 1) :
    ((cfg1.win 11).blk t).view.read (Elt Ideal) G = rowsOf (rowAt t) G := by
  obtain ⟨-, -, -, e0, e1, -, -⟩ := moves t
  funext y
  show G (((cfg1.win 11).blk t).view.emb y) = G (ix2 (rowAt t (y 0)) (y 1))
  refine congrArg _ (funext fun a => Fin.ext ?_)
  match a with
  | ⟨0, _⟩ => show win1_11.index t (0 : Fin 2) * 400 + 1 * (y 0).val = 400 * t.val + (y 0).val; omega
  | ⟨1, _⟩ => show win1_11.index t (1 : Fin 2) * 1 + 1 * (y 1).val = (y 1).val; omega

theorem inResultBlock11 (t : Fin cfg1.N) (i : S10000x1.Idx) :
    i ∈ ((cfg1.win 11).blk t).view.set ↔ ∀ a : Fin 2, win1_11.index t a * S400x1.size a ≤ (i a).val ∧ (i a).val < win1_11.index t a * S400x1.size a + S400x1.size a := by
  show i ∈ ((View.whole main_v76_0).slice (win1_11.rect t)).set ↔ _
  rw [View.set_slice_whole, Rect.mem_set_unit]
  exact Iff.rfl

theorem covered11 (i : S10000x1.Idx) : ∃ t : Fin cfg1.N, (cfg1.win 11).flush t = true ∧ i ∈ ((cfg1.win 11).blk t).view.set := by
  have hi0 : (i 0).val < 10000 := (i 0).isLt
  have hi1 : (i 1).val < 1 := (i 1).isLt
  obtain ⟨t, ht⟩ := pointOnto ⟨(i 0).val / 400, by omega⟩
  have ht' : t.val = (i 0).val / 400 := ht
  obtain ⟨-, -, -, e0, e1, -, -⟩ := moves t
  refine ⟨t, flush1_11 t, ?_⟩
  rw [inResultBlock11]
  intro a
  match a with
  | ⟨0, _⟩ => show win1_11.index t (0 : Fin 2) * 400 ≤ (i 0).val ∧ (i 0).val < win1_11.index t (0 : Fin 2) * 400 + 400; omega
  | ⟨1, _⟩ => show win1_11.index t (1 : Fin 2) * 1 ≤ (i 1).val ∧ (i 1).val < win1_11.index t (1 : Fin 2) * 1 + 1; omega

theorem outBlock12 (t : Fin cfg1.N) (G : Mat 10000 64) :
    ((cfg1.win 12).blk t).view.read (Elt Ideal) G = rowsOf (rowAt t) G := by
  obtain ⟨-, -, -, -, -, e0, e1⟩ := moves t
  funext y
  show G (((cfg1.win 12).blk t).view.emb y) = G (ix2 (rowAt t (y 0)) (y 1))
  refine congrArg _ (funext fun a => Fin.ext ?_)
  match a with
  | ⟨0, _⟩ => show win1_12.index t (0 : Fin 2) * 400 + 1 * (y 0).val = 400 * t.val + (y 0).val; omega
  | ⟨1, _⟩ => show win1_12.index t (1 : Fin 2) * 64 + 1 * (y 1).val = (y 1).val; omega

theorem inResultBlock12 (t : Fin cfg1.N) (i : S10000x64.Idx) :
    i ∈ ((cfg1.win 12).blk t).view.set ↔ ∀ a : Fin 2, win1_12.index t a * S400x64.size a ≤ (i a).val ∧ (i a).val < win1_12.index t a * S400x64.size a + S400x64.size a := by
  show i ∈ ((View.whole main_v76_1).slice (win1_12.rect t)).set ↔ _
  rw [View.set_slice_whole, Rect.mem_set_unit]
  exact Iff.rfl

theorem covered12 (i : S10000x64.Idx) : ∃ t : Fin cfg1.N, (cfg1.win 12).flush t = true ∧ i ∈ ((cfg1.win 12).blk t).view.set := by
  have hi0 : (i 0).val < 10000 := (i 0).isLt
  have hi1 : (i 1).val < 64 := (i 1).isLt
  obtain ⟨t, ht⟩ := pointOnto ⟨(i 0).val / 400, by omega⟩
  have ht' : t.val = (i 0).val / 400 := ht
  obtain ⟨-, -, -, -, -, e0, e1⟩ := moves t
  refine ⟨t, flush1_12 t, ?_⟩
  rw [inResultBlock12]
  intro a
  match a with
  | ⟨0, _⟩ => show win1_12.index t (0 : Fin 2) * 400 ≤ (i 0).val ∧ (i 0).val < win1_12.index t (0 : Fin 2) * 400 + 400; omega
  | ⟨1, _⟩ => show win1_12.index t (1 : Fin 2) * 64 ≤ (i 1).val ∧ (i 1).val < win1_12.index t (1 : Fin 2) * 64 + 64; omega

end Cert.HeadsCall

end
-- ==== Proof.HeadsCall.lean ====
/- The second pallas_call, by blocks of 400 rows over 25 grid points. Whatever the arrays hold when the call is entered,
   its two result arrays end as the scalar head and the bilinear head of the [10000, 256] input array with the ten weight
   and bias operands: block t of each result is the head of rows 400 t … 400 t + 399 of the input, every weight and bias
   operand is loaded whole, both heads work row by row, and the 25 blocks cover each result. -/
import proofs.«151344_j24326694764553_1_alg».proof.Proof.Gen.KernelIdeal.Frame
import proofs.«151344_j24326694764553_1_alg».proof.Proof.Spec
import proofs.«151344_j24326694764553_1_alg».proof.Proof.BilinearPayload
import proofs.«151344_j24326694764553_1_alg».proof.Proof.HeadsGrid
import proofs.«151344_j24326694764553_1_alg».proof.Proof.OperandBlocks
import Idealize.ShloMosaic.Lib.Pipeline.Value

set_option maxRecDepth 16384

noncomputable section

namespace Cert.HeadsCall

open Cert.KernelIdeal Cert.KernelIdeal.Gen Cert.NodeHead
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- What point t writes back into the first result is block t of the scalar head of the arrays as the call finds them. -/
theorem written11 (c : Dev nD) (t : Fin cfg1.N) :
    (dat1 (F := Ideal) V c).flushed 11 t
      = ((cfg1.win 11).blk t).view.read (Elt Ideal) (score (n := 10000) (V c main_v59) (V c main_v61) (V c main_v71)
          (V c main_v63) (V c main_v72) (V c main_v65) (V c main_v73)) := by
  show (cfg1.win 11).cut (grid1.coords t) ((dat1 V c).after 11 t) = _
  rw [after1_11, Cert.BilinearPayload.score_out_eq, inBlock, whole1, whole2, whole3, whole4, whole5, whole6, outBlock11,
    score_rowsOf]
  rfl

/-- The first result array after the call. -/
theorem result11 (c : Dev nD) :
    (dat1 (F := Ideal) V c).arrAt 11 cfg1.N = score (n := 10000) (V c main_v59) (V c main_v61) (V c main_v71)
      (V c main_v63) (V c main_v72) (V c main_v65) (V c main_v73) :=
  (dat1 V c).arrAt_eq_of_cover 11 _ (fun t _ => written11 V c t) covered11

/-- What point t writes back into the second result is block t of the bilinear head of the arrays as the call finds them. -/
theorem written12 (c : Dev nD) (t : Fin cfg1.N) :
    (dat1 (F := Ideal) V c).flushed 12 t
      = ((cfg1.win 12).blk t).view.read (Elt Ideal) (regionScores (n := 10000) (V c main_v59) (V c main_v61) (V c main_v71)
          (V c main_v67) (V c main_v74) (V c main_v70) (V c main_v75)) := by
  show (cfg1.win 12).cut (grid1.coords t) ((dat1 V c).after 12 t) = _
  rw [after1_12, Cert.BilinearPayload.regionScores_eq, inBlock, whole1, whole2, whole7, whole8, whole9, whole10, outBlock12,
    regionScores_rowsOf]
  rfl

/-- The second result array after the call. -/
theorem result12 (c : Dev nD) :
    (dat1 (F := Ideal) V c).arrAt 12 cfg1.N = regionScores (n := 10000) (V c main_v59) (V c main_v61) (V c main_v71)
      (V c main_v67) (V c main_v74) (V c main_v70) (V c main_v75) :=
  (dat1 V c).arrAt_eq_of_cover 12 _ (fun t _ => written12 V c t) covered12

end Cert.HeadsCall

end
-- ==== Proof.SharedChain.lean ====
/- The graph-convolution glue both programs run on the host after the feature product xw = x @ conv_w.T:
   h0 = max (scatter_add over dst of (norm ⊙ xw[src]) + dinv² ⊙ xw + conv_b, 0) + x.
   Here it is ONE function `mid` of xw and of the arguments x, edge_index and conv_b; the gather, the scatter and
   everything computed from edge_index alone are never opened: both programs apply the same operations to their own xw,
   so equal xw give equal h0. -/
import proofs.«151344_j24326694764553_1_alg».proof.Proof.Gen.ReferenceIdeal.Read
import proofs.«151344_j24326694764553_1_alg».proof.Proof.Spec

noncomputable section

namespace Cert.SharedChain

open Cert.ReferenceIdeal Cert.ReferenceIdeal.Gen Cert.ReferenceIdeal.Read Cert.NodeHead
open Idealize.ShloMosaic

/-- The glue after the feature product, as a function of the product `xw`, the features `x0`, the edge list `x1` and the
    convolution's bias `x3`. -/
def mid (xw : FVec Ideal S10000x256 .f32) (x0 : FVec Ideal S10000x256 .f32)
    (x1 : (⟨S2x160000, .i32⟩ : BufTy).Contents (Elt Ideal)) (x3 : FVec Ideal S256 .f32) : FVec Ideal S10000x256 .f32 :=
  addf (F := Ideal) (maximumf (F := Ideal) (addf (F := Ideal) (addf (F := Ideal)
      (Host.scatterAdd (F := Ideal) scatter_S10000x256_S160000x1_S160000x256_1_0_0_1 (val_main_v31 (F := Ideal)) (val_main_v47 (F := Ideal) x1)
        (mulf (F := Ideal) (val_main_v40 (F := Ideal) x1)
          (Host.gather gather_S10000x256_S160000x1_S160000x256_1_0_n_n_0_1_1256 xw (val_main_v38 (F := Ideal) x1))))
      (mulf (F := Ideal) (val_main_v51 (F := Ideal) x1) xw)) (val_main_v55 (F := Ideal) x3)) (val_main_call0_v0 (F := Ideal))) x0

/-- The reference's h0 is the glue applied to its own feature product. -/
theorem ref_h0 (x0 : (⟨S10000x256, .f32⟩ : BufTy).Contents (Elt Ideal)) (x1 : (⟨S2x160000, .i32⟩ : BufTy).Contents (Elt Ideal))
    (x2 : (⟨S256x256, .f32⟩ : BufTy).Contents (Elt Ideal)) (x3 : (⟨S256, .f32⟩ : BufTy).Contents (Elt Ideal)) :
    val_main_v58 (F := Ideal) x0 x1 x2 x3 = mid (val_main_v5 (F := Ideal) x0 x2) x0 x1 x3 := rfl

end Cert.SharedChain

end
-- ==== Proof.HostGlue.lean ====
/- What the kernel's program holds in its buffers when each pallas_call is entered, read off the host operations
   before it: the first call finds the features as launched and the transposed convolution weights; the second finds
   h0 — the shared graph-convolution glue applied to the first call's result array — and each dense layer's weights
   transposed, each bias vector reshaped to one row, the 64 region matrices reshaped to [16384, 256] and transposed.
   Narrowing a float array to bf16 is the identity on the extended reals. -/
import proofs.«151344_j24326694764553_1_alg».proof.Proof.Gen.KernelIdeal.Frame
import proofs.«151344_j24326694764553_1_alg».proof.Proof.SharedChain
import Idealize.ShloMosaic.Lib.StableHlo.Run

set_option maxRecDepth 16384

noncomputable section

namespace Cert.HostGlue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- No operation of the named stretch writes the buffer in the goal: the buffer differs from each operation's result
    buffer, one comparison of references per operation. -/
local macro "no_write" ops:ident : tactic =>
  `(tactic| exact List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-! ## The first call's entry -/

theorem conv_input (c : Dev nD) : V1 m ρ c main_arg0 = m ((c : Thread nD τ).loc main_arg0) :=
  StableHlo.after_of_forall_not_mem (b := Proc.devRef .tc main_arg0) hostOps0 (W0 m ρ c) (by no_write hostOps0)

theorem conv_weights (c : Dev nD) :
    V1 m ρ c main_v1 = transpose S256x256 [1, 0] (m ((c : Thread nD τ).loc main_arg2)) transposes_S256x256_S256x256_1_0 := by
  show StableHlo.after hostOps0 (W0 m ρ c) (Proc.devRef .tc main_v1) = _
  after_results
  rfl

/-! ## The second call's entry -/

/-- A buffer that neither the last host stretch nor the second call writes holds, when that stretch starts, what it
    holds when the program returns. -/
theorem W4_eq_W6 (c : Dev nD) (b : Ref sig .tc)
    (h : ∀ op ∈ (hostOps1_2 : List (HloOp τ sig (Elt Ideal))), (Proc.devRef .tc b : DevRef τ sig) ∉ op.writes)
    (hb : ∀ w, Pipeline.arrRef spec1 w ≠ b) :
    W4 m ρ c (Proc.devRef .tc b) = W6 m ρ c (Proc.devRef .tc b) :=
  ((W6_of_ne m ρ c b hb).trans (StableHlo.after_of_forall_not_mem hostOps1_2 (W4 m ρ c) h)).symm

/-! The weight and bias arguments are as launched when the last stretch starts. -/

theorem W4_arg4 (c : Dev nD) : W4 m ρ c (Proc.devRef .tc main_arg4) = m ((c : Thread nD τ).loc main_arg4) :=
  (W4_eq_W6 m ρ c main_arg4 (by no_write hostOps1_2) (by decide)).trans (W6_main_arg4 m ρ c)
theorem W4_arg5 (c : Dev nD) : W4 m ρ c (Proc.devRef .tc main_arg5) = m ((c : Thread nD τ).loc main_arg5) :=
  (W4_eq_W6 m ρ c main_arg5 (by no_write hostOps1_2) (by decide)).trans (W6_main_arg5 m ρ c)
theorem W4_arg6 (c : Dev nD) : W4 m ρ c (Proc.devRef .tc main_arg6) = m ((c : Thread nD τ).loc main_arg6) :=
  (W4_eq_W6 m ρ c main_arg6 (by no_write hostOps1_2) (by decide)).trans (W6_main_arg6 m ρ c)
theorem W4_arg7 (c : Dev nD) : W4 m ρ c (Proc.devRef .tc main_arg7) = m ((c : Thread nD τ).loc main_arg7) :=
  (W4_eq_W6 m ρ c main_arg7 (by no_write hostOps1_2) (by decide)).trans (W6_main_arg7 m ρ c)
theorem W4_arg8 (c : Dev nD) : W4 m ρ c (Proc.devRef .tc main_arg8) = m ((c : Thread nD τ).loc main_arg8) :=
  (W4_eq_W6 m ρ c main_arg8 (by no_write hostOps1_2) (by decide)).trans (W6_main_arg8 m ρ c)
theorem W4_arg9 (c : Dev nD) : W4 m ρ c (Proc.devRef .tc main_arg9) = m ((c : Thread nD τ).loc main_arg9) :=
  (W4_eq_W6 m ρ c main_arg9 (by no_write hostOps1_2) (by decide)).trans (W6_main_arg9 m ρ c)
theorem W4_arg10 (c : Dev nD) : W4 m ρ c (Proc.devRef .tc main_arg10) = m ((c : Thread nD τ).loc main_arg10) :=
  (W4_eq_W6 m ρ c main_arg10 (by no_write hostOps1_2) (by decide)).trans (W6_main_arg10 m ρ c)
theorem W4_arg11 (c : Dev nD) : W4 m ρ c (Proc.devRef .tc main_arg11) = m ((c : Thread nD τ).loc main_arg11) :=
  (W4_eq_W6 m ρ c main_arg11 (by no_write hostOps1_2) (by decide)).trans (W6_main_arg11 m ρ c)
theorem W4_arg12 (c : Dev nD) : W4 m ρ c (Proc.devRef .tc main_arg12) = m ((c : Thread nD τ).loc main_arg12) :=
  (W4_eq_W6 m ρ c main_arg12 (by no_write hostOps1_2) (by decide)).trans (W6_main_arg12 m ρ c)
theorem W4_arg13 (c : Dev nD) : W4 m ρ c (Proc.devRef .tc main_arg13) = m ((c : Thread nD τ).loc main_arg13) :=
  (W4_eq_W6 m ρ c main_arg13 (by no_write hostOps1_2) (by decide)).trans (W6_main_arg13 m ρ c)

/-! The arguments the glue reads are as launched when the first call returns: the call reads the features through an
    input window, which leaves them as entered, and touches neither the edge list nor the bias; the two operations
    before the call write none of the three. -/

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (conv_input m ρ c)
theorem W2_arg1 (c : Dev nD) : W2 m ρ c (Proc.devRef .tc main_arg1) = m ((c : Thread nD τ).loc main_arg1) :=
  (W2_of_ne m ρ c main_arg1 (by decide)).trans
    (StableHlo.after_of_forall_not_mem (b := Proc.devRef .tc main_arg1) hostOps0 (W0 m ρ c) (by no_write hostOps0))
theorem W2_arg3 (c : Dev nD) : W2 m ρ c (Proc.devRef .tc main_arg3) = m ((c : Thread nD τ).loc main_arg3) :=
  (W2_of_ne m ρ c main_arg3 (by decide)).trans
    (StableHlo.after_of_forall_not_mem (b := Proc.devRef .tc main_arg3) hostOps0 (W0 m ρ c) (by no_write hostOps0))

set_option maxHeartbeats 4000000 in
/-- h0 is the shared glue of the first call's result array (whatever that array holds) and the arguments. -/
theorem head_input (c : Dev nD) :
    V5 m ρ c main_v59 = Cert.SharedChain.mid (V2 m ρ c main_v2) (m ((c : Thread nD τ).loc main_arg0))
      (m ((c : Thread nD τ).loc main_arg1)) (m ((c : Thread nD τ).loc main_arg3)) := by
  show StableHlo.after hostOps1_2 (StableHlo.after hostOps1_1 (StableHlo.after hostOps1 (W2 m ρ c))) (Proc.devRef .tc main_v59) = _
  generalize hX : W2 m ρ c = X
  -- the 88 operations composed: a term over the first call's result array, the features, the edge list and the bias
  after_results_simp
  rw [← hX, W2_arg0, W2_arg1, W2_arg3]
  -- operation for operation it is the glue's definition unfolded (the two programs' gather, scatter and broadcast
  -- records are equal field by field)
  rfl

theorem head_w1 (c : Dev nD) :
    V5 m ρ c main_v61 = transpose S256x256 [1, 0] (m ((c : Thread nD τ).loc main_arg4)) transposes_S256x256_S256x256_1_0 := by
  show StableHlo.after hostOps1_2 (W4 m ρ c) (Proc.devRef .tc main_v61) = _
  generalize hX : W4 m ρ c = X
  after_results
  rw [← hX, W4_arg4]
  rfl
theorem head_b1 (c : Dev nD) : V5 m ρ c main_v71 = shapeCast S1x256 (m ((c : Thread nD τ).loc main_arg5)) shapeCasts_S256_S1x256 := by
  show StableHlo.after hostOps1_2 (W4 m ρ c) (Proc.devRef .tc main_v71) = _
  generalize hX : W4 m ρ c = X
  after_results
  rw [← hX, W4_arg5]
  rfl
theorem head_w2 (c : Dev nD) :
    V5 m ρ c main_v63 = transpose S256x256 [1, 0] (m ((c : Thread nD τ).loc main_arg6)) transposes_S256x256_S256x256_1_0 := by
  show StableHlo.after hostOps1_2 (W4 m ρ c) (Proc.devRef .tc main_v63) = _
  generalize hX : W4 m ρ c = X
  after_results
  rw [← hX, W4_arg6]
  rfl
theorem head_b2 (c : Dev nD) : V5 m ρ c main_v72 = shapeCast S1x256 (m ((c : Thread nD τ).loc main_arg7)) shapeCasts_S256_S1x256 := by
  show StableHlo.after hostOps1_2 (W4 m ρ c) (Proc.devRef .tc main_v72) = _
  generalize hX : W4 m ρ c = X
  after_results
  rw [← hX, W4_arg7]
  rfl
theorem head_w3 (c : Dev nD) :
    V5 m ρ c main_v65 = transpose S256x1 [1, 0] (m ((c : Thread nD τ).loc main_arg8)) transposes_S1x256_S256x1_1_0 := by
  show StableHlo.after hostOps1_2 (W4 m ρ c) (Proc.devRef .tc main_v65) = _
  generalize hX : W4 m ρ c = X
  after_results
  rw [← hX, W4_arg8]
  rfl
theorem head_b3 (c : Dev nD) : V5 m ρ c main_v73 = shapeCast S1x1 (m ((c : Thread nD τ).loc main_arg9)) shapeCasts_S1_S1x1 := by
  show StableHlo.after hostOps1_2 (W4 m ρ c) (Proc.devRef .tc main_v73) = _
  generalize hX : W4 m ρ c = X
  after_results
  rw [← hX, W4_arg9]
  rfl
theorem head_w4 (c : Dev nD) :
    V5 m ρ c main_v67 = transpose S256x256 [1, 0] (m ((c : Thread nD τ).loc main_arg10)) transposes_S256x256_S256x256_1_0 := by
  show StableHlo.after hostOps1_2 (W4 m ρ c) (Proc.devRef .tc main_v67) = _
  generalize hX : W4 m ρ c = X
  after_results
  rw [← hX, W4_arg10]
  rfl
theorem head_b4 (c : Dev nD) : V5 m ρ c main_v74 = shapeCast S1x256 (m ((c : Thread nD τ).loc main_arg11)) shapeCasts_S256_S1x256 := by
  show StableHlo.after hostOps1_2 (W4 m ρ c) (Proc.devRef .tc main_v74) = _
  generalize hX : W4 m ρ c = X
  after_results
  rw [← hX, W4_arg11]
  rfl
theorem head_wf (c : Dev nD) :
    V5 m ρ c main_v70 = transpose S256x16384 [1, 0]
      (shapeCast S16384x256 (m ((c : Thread nD τ).loc main_arg12)) shapeCasts_S64x256x256_S16384x256) transposes_S16384x256_S256x16384_1_0 := by
  show StableHlo.after hostOps1_2 (W4 m ρ c) (Proc.devRef .tc main_v70) = _
  generalize hX : W4 m ρ c = X
  after_results
  rw [← hX, W4_arg12]
  rfl
theorem head_bb (c : Dev nD) : V5 m ρ c main_v75 = shapeCast S1x64 (m ((c : Thread nD τ).loc main_arg13)) shapeCasts_S64_S1x64 := by
  show StableHlo.after hostOps1_2 (W4 m ρ c) (Proc.devRef .tc main_v75) = _
  generalize hX : W4 m ρ c = X
  after_results
  rw [← hX, W4_arg13]
  rfl

end Cert.HostGlue

end
-- ==== Proof.KernelValue.lean ====
/- The kernel's program, end to end: its two results as functions of the arguments' launch contents. The first call
   leaves the product of the features with the transposed convolution weights; the host glue turns it into h0; the second
   call leaves the scalar head and the bilinear head of h0 with the transposed weights and the one-row biases. -/
import proofs.«151344_j24326694764553_1_alg».proof.Proof.Gen.KernelIdeal.Frame
import proofs.«151344_j24326694764553_1_alg».proof.Proof.KernelRun
import proofs.«151344_j24326694764553_1_alg».proof.Proof.ConvProduct
import proofs.«151344_j24326694764553_1_alg».proof.Proof.HeadsCall
import proofs.«151344_j24326694764553_1_alg».proof.Proof.HostGlue
import proofs.«151344_j24326694764553_1_alg».proof.Proof.SharedChain

set_option maxRecDepth 16384

noncomputable section

namespace Cert.KernelValue

open Cert.KernelIdeal Cert.KernelIdeal.Gen Cert.NodeHead Cert.SharedChain
open Idealize.ShloMosaic Idealize.ShloMosaic.TcCoe Idealize.SL.Sem

variable (m : (ℓ : Loc nD τ sig) → Buf (Elt Ideal) ℓ) (ρ : Dev nD → PrngReg)

/-- h0 as the kernel's program computes it: the shared glue of its own feature product. -/
def h0 (c : Dev nD) : FVec Ideal S10000x256 .f32 :=
  mid (prod (n := 10000) (m ((c : Thread nD τ).loc main_arg0)) (transpose S256x256 [1, 0] (m ((c : Thread nD τ).loc main_arg2)) transposes_S256x256_S256x256_1_0))
    (m ((c : Thread nD τ).loc main_arg0)) (m ((c : Thread nD τ).loc main_arg1)) (m ((c : Thread nD τ).loc main_arg3))

/-- The first result: the scalar head. -/
def x1 (c : Dev nD) : FVec Ideal S10000x1 .f32 :=
  score (n := 10000) (h0 m c) (transpose S256x256 [1, 0] (m ((c : Thread nD τ).loc main_arg4)) transposes_S256x256_S256x256_1_0)
    (shapeCast S1x256 (m ((c : Thread nD τ).loc main_arg5)) shapeCasts_S256_S1x256)
    (transpose S256x256 [1, 0] (m ((c : Thread nD τ).loc main_arg6)) transposes_S256x256_S256x256_1_0)
    (shapeCast S1x256 (m ((c : Thread nD τ).loc main_arg7)) shapeCasts_S256_S1x256)
    (transpose S256x1 [1, 0] (m ((c : Thread nD τ).loc main_arg8)) transposes_S1x256_S256x1_1_0)
    (shapeCast S1x1 (m ((c : Thread nD τ).loc main_arg9)) shapeCasts_S1_S1x1)

/-- The second result: the bilinear head. -/
def x2 (c : Dev nD) : FVec Ideal S10000x64 .f32 :=
  regionScores (n := 10000) (h0 m c) (transpose S256x256 [1, 0] (m ((c : Thread nD τ).loc main_arg4)) transposes_S256x256_S256x256_1_0)
    (shapeCast S1x256 (m ((c : Thread nD τ).loc main_arg5)) shapeCasts_S256_S1x256)
    (transpose S256x256 [1, 0] (m ((c : Thread nD τ).loc main_arg10)) transposes_S256x256_S256x256_1_0)
    (shapeCast S1x256 (m ((c : Thread nD τ).loc main_arg11)) shapeCasts_S256_S1x256)
    (transpose S256x16384 [1, 0] (shapeCast S16384x256 (m ((c : Thread nD τ).loc main_arg12)) shapeCasts_S64x256x256_S16384x256) transposes_S16384x256_S256x16384_1_0)
    (shapeCast S1x64 (m ((c : Thread nD τ).loc main_arg13)) shapeCasts_S64_S1x64)

/-- The first call's result array, when the second stretch of host operations starts. -/
theorem conv_result (c : Dev nD) :
    V2 m ρ c main_v2 = prod (n := 10000) (m ((c : Thread nD τ).loc main_arg0)) (transpose S256x256 [1, 0] (m ((c : Thread nD τ).loc main_arg2)) transposes_S256x256_S256x256_1_0) := by
  refine (W2_arr m ρ c 2).trans ?_
  rw [Cert.ConvProduct.result (V1 m ρ) c, Cert.HostGlue.conv_input, Cert.HostGlue.conv_weights]

theorem entry_h0 (c : Dev nD) : V5 m ρ c main_v59 = h0 m c := by
  rw [Cert.HostGlue.head_input, conv_result]
  rfl

theorem result_x1 (c : Dev nD) : W6 m ρ c (Proc.devRef .tc main_v76_0) = x1 m c := by
  refine (W6_arr m ρ c 11).trans ?_
  rw [Cert.HeadsCall.result11 (V5 m ρ) c, entry_h0, Cert.HostGlue.head_w1, Cert.HostGlue.head_b1, Cert.HostGlue.head_w2,
    Cert.HostGlue.head_b2, Cert.HostGlue.head_w3, Cert.HostGlue.head_b3]
  rfl

theorem result_x2 (c : Dev nD) : W6 m ρ c (Proc.devRef .tc main_v76_1) = x2 m c := by
  refine (W6_arr m ρ c 12).trans ?_
  rw [Cert.HeadsCall.result12 (V5 m ρ) c, entry_h0, Cert.HostGlue.head_w1, Cert.HostGlue.head_b1, Cert.HostGlue.head_w4,
    Cert.HostGlue.head_b4, Cert.HostGlue.head_wf, Cert.HostGlue.head_bb]
  rfl

/-- The kernel's run with its results named. -/
theorem run : θ_run defs (onTc (τ := τ) (main (F := Ideal))) ⟨m, fun _ => 0, ρ⟩ (fun r => ∀ c : Dev nD,
      r.2.mem ((c.tc : Thread nD τ).loc main_v76_0) = x1 m c
      ∧ r.2.mem ((c.tc : Thread nD τ).loc main_v76_1) = x2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (result_x1 m ρ c), (h c).2.1.trans (result_x2 m ρ c), (h c).2.2⟩)
    (Cert.KernelIdeal.RunResults.run_results m ρ)

end Cert.KernelValue

end
-- ==== Proof.LibMatProd.lean ====
/- The textbook product of an m x k by a k x n matrix over the extended reals, (A B)(a, b) = Σ_c A(a, c) · B(c, b), and
   the two operations that compute it exactly there: the host's dot_general over a rows-by-columns dimension record,
   and a matmul with that record into a zero accumulator. Also: a row block of the product is the product of the
   row block. -/
import Idealize.ShloMosaic.Lib.ValueIdx
import Idealize.ShloMosaic.PureOps.Ideal.Laws
import proofs.«151344_j24326694764553_1_alg».proof.Proof.LibDotRead

noncomputable section

open scoped BigOperators

namespace Cert.MatProd

open Idealize.ShloMosaic Idealize.ShloMosaic.ValueIdx

/-- The matrix product, entry by entry. -/
def matProd {m k n : Nat} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_ix2 {m k n : Nat} (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- The host's dot_general over a rows-by-columns record is the matrix product: its contraction sum, with no
    accumulator, re-indexed by the contracted coordinate. -/
theorem hostDot_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = matProd A B := by
  funext i
  obtain ⟨a, b, rfl⟩ : ∃ (a : Fin m) (b : Fin n), i = ix2 a b := ⟨i 0, i 1, eq_ix2 i⟩
  refine (Ideal.dotGeneral_apply _ prec _ A B (ix2 a b)).trans ?_
  exact Cert.DotRead.sum_contr_plain w A B a b

/-- A matmul over a rows-by-columns record into the zero accumulator is the matrix product: zero plus the contraction
    sum. -/
theorem matmulZero_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) = matProd A B := by
  funext i
  obtain ⟨a, b, rfl⟩ : ∃ (a : Fin m) (b : Fin n), i = ix2 a b := ⟨i 0, i 1, eq_ix2 i⟩
  refine (Ideal.matmul_constant_zero_apply _ prec A B (ix2 a b)).trans ?_
  exact Cert.DotRead.sum_contr_plain w A B a b

end Cert.MatProd

end
-- ==== Proof.LibBiasRow.lean ====
/- A vector of n entries laid along each of the m rows of a matrix, read at an entry: entry (a, j) of the matrix is
   entry j of the vector. Three spellings of the same layout: the vector cast to one row; that row broadcast down
   the rows (a kernel's `vector.shape_cast` then `vector.broadcast`); and the host's two steps, the vector broadcast
   along axis 1 into a one-row matrix, then that matrix broadcast along both axes. This is the bias of a dense layer
   added to every row of a product. -/
import Idealize.ShloMosaic.Lib.ValueIdx
import Idealize.ShloMosaic.Lib.Pipeline.Value
import Idealize.ShloMosaic.Lib.KernelVsHost

noncomputable section

namespace Cert.BiasRow

open Idealize.ShloMosaic Idealize.ShloMosaic.ValueIdx

variable {α : Type}

/-- The vector cast to a one-row matrix reads, at (0, j), the vector at j. -/
theorem oneRow_cast_apply {n : ℕ} (b : (⟨1, ![n]⟩ : Shape).Idx → α)
    (h1 : (⟨1, ![n]⟩ : Shape).ShapeCasts ⟨2, ![1, n]⟩) (j : Fin n) :
    shapeCast ⟨2, ![1, n]⟩ b h1 (ix2 (0 : Fin 1) j) = b (ix1 j) :=
  shapeCast_apply b h1 (ix2 (0 : Fin 1) j) (ix1 j) (by
    rw [Shape.rowMajor_val_two, Shape.rowMajor_val_one]
    show j.val = 0 * n + j.val
    omega)

/-- The kernel's spelling: the one-row cast broadcast down m rows reads, at (a, j), the vector at j. -/
theorem castRows_apply {m n : ℕ} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (a : Fin m) (j : Fin n) :
    broadcastTo ⟨2, ![m, n]⟩ (shapeCast ⟨2, ![1, n]⟩ b h1) hb (ix2 a j) = b (ix1 j) := by
  refine (broadcastTo_apply (shapeCast ⟨2, ![1, n]⟩ b h1) hb (ix2 a j) (ix2 (0 : Fin 1) j) ?_).trans
    (oneRow_cast_apply b h1 j)
  intro ax
  match ax with
  | ⟨0, _⟩ => rfl
  | ⟨1, _⟩ =>
    show j.val = if n = 1 then 0 else j.val
    split
    · have := j.isLt; omega
    · rfl

/-- The host's spelling: the vector broadcast along axis 1 into one row, that row broadcast along both axes into
    m rows, reads, at (a, j), the vector at j. -/
theorem inDimRows_apply {m n : ℕ} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (a : Fin m) (j : Fin n) :
    broadcastInDim ⟨2, ![m, n]⟩ ![0, 1] hd2 (broadcastInDim ⟨2, ![1, n]⟩ ![1] hd1 b) (ix2 a j) = b (ix1 j) := by
  refine (broadcastInDim_oneRow_apply hd2 _ a j).trans ?_
  refine broadcastInDim_apply ![1] hd1 b (ix2 (0 : Fin 1) j) (ix1 j) ?_
  intro ax
  match ax with
  | ⟨0, _⟩ =>
    show j.val = if n = 1 then 0 else j.val
    split
    · have := j.isLt; omega
    · rfl

end Cert.BiasRow

end
-- ==== Proof.RefStages.lean ====
/- The reference read stage by stage, as whole arrays: its feature product is the matrix product with the transposed
   convolution weights, and from h0 on it is the two heads of the specification, with each weight matrix the stage that
   transposed it and each bias vector laid out as one row. A host dot_general of an [n, k] by a [k, m] array is the
   matrix product; a bias vector broadcast along the rows, read at (p, q), is the vector at q, which is also what its
   one-row reshape holds at (0, q); the reshape of the [10000, 16384] product to [10000, 64, 256] reads column
   256 r + j at (p, r, j). -/
import proofs.«151344_j24326694764553_1_alg».proof.Proof.Gen.ReferenceIdeal.Run
import proofs.«151344_j24326694764553_1_alg».proof.Proof.Gen.ReferenceIdeal.Read
import proofs.«151344_j24326694764553_1_alg».proof.Proof.Spec
import proofs.«151344_j24326694764553_1_alg».proof.Proof.LibMatProd
import proofs.«151344_j24326694764553_1_alg».proof.Proof.LibBiasRow
import proofs.«151344_j24326694764553_1_alg».proof.Proof.LibKeepdims

noncomputable section

open scoped BigOperators

namespace Cert.RefStages

open Cert.ReferenceIdeal Cert.ReferenceIdeal.Gen Cert.ReferenceIdeal.Read Cert.NodeHead
open Idealize.ShloMosaic Idealize.ShloMosaic.ValueIdx

/-! ## The host's layers over any operands -/

/-- The zero word spread over a matrix reads the zero word everywhere. -/
theorem zeroSpread_apply {n m : Nat} (hz : (⟨0, ![]⟩ : Shape).BroadcastsInDim ⟨2, ![n, m]⟩ ![])
    (i : (⟨2, ![n, m]⟩ : Shape).Idx) :
    broadcastInDim ⟨2, ![n, m]⟩ ![] hz (constant (F := Ideal) ⟨0, ![]⟩ .f32 0x00000000#32) i = zeroF :=
  broadcastInDim_apply ![] hz (constant (F := Ideal) ⟨0, ![]⟩ .f32 0x00000000#32) i (fun a => a.elim0) (fun a => a.elim0)

/-- The host's linear layer: the dot_general plus the bias vector laid along every row is the product plus the bias
    row, the bias row being the vector cast to one row. -/
theorem hostLinear_eq {n k m : Nat}
    (w : DotDims.WF ⟨2, ![n, k]⟩ ⟨2, ![k, m]⟩ ⟨2, ![n, m]⟩ [1] [0] [0] [1] [] [])
    (A : FVec Ideal ⟨2, ![n, k]⟩ .f32) (W : FVec Ideal ⟨2, ![k, m]⟩ .f32) (b : FVec Ideal ⟨1, ![m]⟩ .f32)
    (hd1 : (⟨1, ![m]⟩ : Shape).BroadcastsInDim ⟨2, ![1, m]⟩ ![1])
    (hd2 : (⟨2, ![1, m]⟩ : Shape).BroadcastsInDim ⟨2, ![n, m]⟩ ![0, 1])
    (h1 : (⟨1, ![m]⟩ : Shape).ShapeCasts ⟨2, ![1, m]⟩) :
    addf (F := Ideal) (φ := .f32)
        (Host.dotGeneral (⟨[1], [0], [0], [1], [], [], w⟩ : DotDims ⟨2, ![n, k]⟩ ⟨2, ![k, m]⟩ ⟨2, ![n, m]⟩) none A W)
        (broadcastInDim ⟨2, ![n, m]⟩ ![0, 1] hd2 (broadcastInDim ⟨2, ![1, m]⟩ ![1] hd1 b))
      = linear A W (shapeCast ⟨2, ![1, m]⟩ b h1) := by
  rw [Cert.MatProd.hostDot_eq]
  funext i
  obtain ⟨p, q, rfl⟩ : ∃ (p : Fin n) (q : Fin m), i = ix2 p q := ⟨i 0, i 1, eq_ix2 i⟩
  show Cert.MatProd.matProd A W (ix2 p q)
      + broadcastInDim ⟨2, ![n, m]⟩ ![0, 1] hd2 (broadcastInDim ⟨2, ![1, m]⟩ ![1] hd1 b) (ix2 p q)
    = prod A W (ix2 p q) + shapeCast ⟨2, ![1, m]⟩ b h1 (ix2 (0 : Fin 1) q)
  rw [Cert.BiasRow.inDimRows_apply, Cert.BiasRow.oneRow_cast_apply]
  rfl

/-- The host's hidden layer: the linear layer, then the maximum with the zero word spread over the matrix. -/
theorem hostHidden_eq {n k m : Nat}
    (w : DotDims.WF ⟨2, ![n, k]⟩ ⟨2, ![k, m]⟩ ⟨2, ![n, m]⟩ [1] [0] [0] [1] [] [])
    (A : FVec Ideal ⟨2, ![n, k]⟩ .f32) (W : FVec Ideal ⟨2, ![k, m]⟩ .f32) (b : FVec Ideal ⟨1, ![m]⟩ .f32)
    (hd1 : (⟨1, ![m]⟩ : Shape).BroadcastsInDim ⟨2, ![1, m]⟩ ![1])
    (hd2 : (⟨2, ![1, m]⟩ : Shape).BroadcastsInDim ⟨2, ![n, m]⟩ ![0, 1])
    (hz : (⟨0, ![]⟩ : Shape).BroadcastsInDim ⟨2, ![n, m]⟩ ![])
    (h1 : (⟨1, ![m]⟩ : Shape).ShapeCasts ⟨2, ![1, m]⟩) :
    maximumf (F := Ideal) (φ := .f32)
        (addf (F := Ideal) (φ := .f32)
          (Host.dotGeneral (⟨[1], [0], [0], [1], [], [], w⟩ : DotDims ⟨2, ![n, k]⟩ ⟨2, ![k, m]⟩ ⟨2, ![n, m]⟩) none A W)
          (broadcastInDim ⟨2, ![n, m]⟩ ![0, 1] hd2 (broadcastInDim ⟨2, ![1, m]⟩ ![1] hd1 b)))
        (broadcastInDim ⟨2, ![n, m]⟩ ![] hz (constant (F := Ideal) ⟨0, ![]⟩ .f32 0x00000000#32))
      = hidden A W (shapeCast ⟨2, ![1, m]⟩ b h1) := by
  rw [hostLinear_eq w A W b hd1 hd2 h1]
  funext i
  show max (linear A W (shapeCast ⟨2, ![1, m]⟩ b h1) i)
      (broadcastInDim ⟨2, ![n, m]⟩ ![] hz (constant (F := Ideal) ⟨0, ![]⟩ .f32 0x00000000#32) i)
    = max (linear A W (shapeCast ⟨2, ![1, m]⟩ b h1) i) zeroF
  rw [zeroSpread_apply]

/-! ## The reference's stages -/

/-- The reference's feature product is the matrix product of the features with the transposed weights. -/
theorem ref_conv (x0 : (⟨S10000x256, .f32⟩ : BufTy).Contents (Elt Ideal)) (x2 : (⟨S256x256, .f32⟩ : BufTy).Contents (Elt Ideal)) :
    val_main_v5 (F := Ideal) x0 x2 = prod (n := 10000) x0 (val_main_v4 (F := Ideal) x2) := by
  unfold val_main_v5
  exact Cert.MatProd.hostDot_eq _ none _ _

/-- The first hidden layer, shared by the two heads: h0 against the transposed first weights, the first bias. -/
theorem ref_hidden1 (x0 : (⟨S10000x256, .f32⟩ : BufTy).Contents (Elt Ideal)) (x1 : (⟨S2x160000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal))
    (h5 : (⟨1, ![256]⟩ : Shape).ShapeCasts ⟨2, ![1, 256]⟩) :
    val_main_v64 (F := Ideal) x0 x1 x2 x3 x4 x5
      = hidden (n := 10000) (val_main_v58 (F := Ideal) x0 x1 x2 x3) (val_main_v59 (F := Ideal) x4) (shapeCast ⟨2, ![1, 256]⟩ x5 h5) := by
  unfold val_main_v64 val_main_v63 val_main_v62 val_main_v61 val_main_v60 val_main_call1_v0 val_main_call1_cst
  generalize val_main_v58 (F := Ideal) x0 x1 x2 x3 = h0
  exact hostHidden_eq _ h0 _ x5 _ _ _ h5

/-- The scalar head's second hidden layer. -/
theorem ref_hidden2 (x0 : (⟨S10000x256, .f32⟩ : BufTy).Contents (Elt Ideal)) (x1 : (⟨S2x160000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal))
    (h7 : (⟨1, ![256]⟩ : Shape).ShapeCasts ⟨2, ![1, 256]⟩) :
    val_main_v70 (F := Ideal) x0 x1 x2 x3 x4 x5 x6 x7
      = hidden (n := 10000) (val_main_v64 (F := Ideal) x0 x1 x2 x3 x4 x5) (val_main_v65 (F := Ideal) x6) (shapeCast ⟨2, ![1, 256]⟩ x7 h7) := by
  unfold val_main_v70 val_main_v69 val_main_v68 val_main_v67 val_main_v66 val_main_call2_v0 val_main_call2_cst
  generalize val_main_v64 (F := Ideal) x0 x1 x2 x3 x4 x5 = h1
  exact hostHidden_eq _ h1 _ x7 _ _ _ h7

/-- The bilinear head's second hidden layer. -/
theorem ref_hidden4 (x0 : (⟨S10000x256, .f32⟩ : BufTy).Contents (Elt Ideal)) (x1 : (⟨S2x160000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x10 : (⟨S256x256, .f32⟩ : BufTy).Contents (Elt Ideal)) (x11 : (⟨S256, .f32⟩ : BufTy).Contents (Elt Ideal))
    (h11 : (⟨1, ![256]⟩ : Shape).ShapeCasts ⟨2, ![1, 256]⟩) :
    val_main_v81 (F := Ideal) x0 x1 x2 x3 x4 x5 x10 x11
      = hidden (n := 10000) (val_main_v64 (F := Ideal) x0 x1 x2 x3 x4 x5) (val_main_v76 (F := Ideal) x10) (shapeCast ⟨2, ![1, 256]⟩ x11 h11) := by
  unfold val_main_v81 val_main_v80 val_main_v79 val_main_v78 val_main_v77 val_main_call3_v0 val_main_call3_cst
  generalize val_main_v64 (F := Ideal) x0 x1 x2 x3 x4 x5 = h1
  exact hostHidden_eq _ h1 _ x11 _ _ _ h11

/-- The reference's first result is the scalar head of its h0. -/
theorem ref_score (x0 : (⟨S10000x256, .f32⟩ : BufTy).Contents (Elt Ideal)) (x1 : (⟨S2x160000, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S1x256, .f32⟩ : BufTy).Contents (Elt Ideal)) (x9 : (⟨S1, .f32⟩ : BufTy).Contents (Elt Ideal))
    (h5 h7 : (⟨1, ![256]⟩ : Shape).ShapeCasts ⟨2, ![1, 256]⟩) (h9 : (⟨1, ![1]⟩ : Shape).ShapeCasts ⟨2, ![1, 1]⟩) :
    val_main_v75 (F := Ideal) x0 x1 x2 x3 x4 x5 x6 x7 x8 x9
      = score (n := 10000) (val_main_v58 (F := Ideal) x0 x1 x2 x3) (val_main_v59 (F := Ideal) x4) (shapeCast ⟨2, ![1, 256]⟩ x5 h5)
          (val_main_v65 (F := Ideal) x6) (shapeCast ⟨2, ![1, 256]⟩ x7 h7) (val_main_v71 (F := Ideal) x8) (shapeCast ⟨2, ![1, 1]⟩ x9 h9) := by
  unfold score
  rw [← ref_hidden1 x0 x1 x2 x3 x4 x5 h5, ← ref_hidden2 x0 x1 x2 x3 x4 x5 x6 x7 h7]
  unfold val_main_v75 val_main_v74 val_main_v73 val_main_v72
  generalize val_main_v70 (F := Ideal) x0 x1 x2 x3 x4 x5 x6 x7 = h2
  exact hostLinear_eq _ h2 _ x9 _ _ h9

/-- The reference's second result is the bilinear head of its h0. -/
theorem ref_regionScores (x0 : (⟨S10000x256, .f32⟩ : BufTy).Contents (Elt Ideal)) (x1 : (⟨S2x160000, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x10 : (⟨S256x256, .f32⟩ : BufTy).Contents (Elt Ideal)) (x11 : (⟨S256, .f32⟩ : BufTy).Contents (Elt Ideal))
    (x12 : (⟨S64x256x256, .f32⟩ : BufTy).Contents (Elt Ideal)) (x13 : (⟨S64, .f32⟩ : BufTy).Contents (Elt Ideal))
    (h5 h11 : (⟨1, ![256]⟩ : Shape).ShapeCasts ⟨2, ![1, 256]⟩) (h13 : (⟨1, ![64]⟩ : Shape).ShapeCasts ⟨2, ![1, 64]⟩) :
    val_main_v92 (F := Ideal) x0 x1 x2 x3 x4 x5 x10 x11 x12 x13
      = regionScores (n := 10000) (val_main_v58 (F := Ideal) x0 x1 x2 x3) (val_main_v59 (F := Ideal) x4) (shapeCast ⟨2, ![1, 256]⟩ x5 h5)
          (val_main_v76 (F := Ideal) x10) (shapeCast ⟨2, ![1, 256]⟩ x11 h11) (val_main_v83 (F := Ideal) x12) (shapeCast ⟨2, ![1, 64]⟩ x13 h13) := by
  -- the product against the side-by-side region matrices, as a whole array
  have e84 : val_main_v84 (F := Ideal) x0 x1 x2 x3 x4 x5 x10 x11 x12
      = prod (n := 10000) (val_main_v81 (F := Ideal) x0 x1 x2 x3 x4 x5 x10 x11) (val_main_v83 (F := Ideal) x12) := by
    unfold val_main_v84
    exact Cert.MatProd.hostDot_eq _ none _ _
  unfold regionScores
  rw [← ref_hidden1 x0 x1 x2 x3 x4 x5 h5, ← ref_hidden4 x0 x1 x2 x3 x4 x5 x10 x11 h11]
  funext i
  obtain ⟨p, r, rfl⟩ : ∃ (p : Fin 10000) (r : Fin 64), i = ix2 p r := ⟨i 0, i 1, eq_ix2 i⟩
  rw [val_main_v92_apply, val_main_v89_apply, val_main_v91_apply, val_main_v90_apply, val_main_cst_11_apply]
  -- term k of the reduction: entry (p, r, k) of the reshaped product times entry (p, k) of the hidden layer
  have hk : ∀ k : Fin 256, val_main_v88 (F := Ideal) x0 x1 x2 x3 x4 x5 x10 x11 x12 (idx_main_v89 (ix2 p r) k)
      = (∑ c : Fin 256, val_main_v81 (F := Ideal) x0 x1 x2 x3 x4 x5 x10 x11 (ix2 p c)
            * val_main_v83 (F := Ideal) x12 (ix2 c (regionCol r k)))
          * val_main_v81 (F := Ideal) x0 x1 x2 x3 x4 x5 x10 x11 (ix2 p k) := by
    intro k
    rw [val_main_v88_apply, val_main_v85_apply, val_main_v87_apply, val_main_v86_apply, e84]
    generalize val_main_v81 (F := Ideal) x0 x1 x2 x3 x4 x5 x10 x11 = h
    generalize val_main_v83 (F := Ideal) x12 = wf
    -- position (p, r, k) of [10000, 64, 256] is position (p, 256 r + k) of [10000, 16384]
    have e0 : idx_main_v85 (idx_main_v89 (ix2 p r) k) = ix2 p (regionCol r k) := by
      funext a
      apply Fin.ext
      match a with
      | ⟨0, _⟩ =>
        show ((p.val * 64 + r.val) * 256 + k.val) / 16384 = p.val
        have := r.isLt; have := k.isLt; omega
      | ⟨1, _⟩ =>
        show ((p.val * 64 + r.val) * 256 + k.val) % 16384 = 256 * r.val + k.val
        have := r.isLt; have := k.isLt; omega
    have e1 : idx_main_v86 (idx_main_v87 (idx_main_v89 (ix2 p r) k)) = ix2 p k := by
      funext a
      apply Fin.ext
      match a with
      | ⟨0, _⟩ => rfl
      | ⟨1, _⟩ => rfl
    rw [e0, e1]
    rfl
  simp only [hk]
  have hb : shapeCast ⟨2, ![1, 64]⟩ x13 h13 (ix2 (0 : Fin 1) r) = x13 (idx_main_v90 (idx_main_v91 (ix2 p r))) := by
    rw [Cert.BiasRow.oneRow_cast_apply]
    exact congrArg x13 (funext fun a => Fin.ext (by match a with | ⟨0, _⟩ => rfl))
  show FloatOps.ofBits (F := Ideal) .f32 0x00000000#32 + _ + _ = _ + shapeCast ⟨2, ![1, 64]⟩ x13 h13 (ix2 (0 : Fin 1) r)
  rw [hb, show FloatOps.ofBits (F := Ideal) .f32 0x00000000#32 = (0 : EReal) from Ideal.ofBits_zero_f32, zero_add]

end Cert.RefStages

end
-- ==== Proof.lean ====
/- The certificate of the graph-convolution network with a scalar head and a bilinear head.

   The kernel's program computes xw = x @ conv_w.T in a first pallas_call (blocks of 2000 rows, the weights transposed
   on the host), runs the gather / scatter glue of the graph convolution on the host (h0 = max (agg + conv_b, 0) + x),
   and computes both heads in a second pallas_call (blocks of 400 rows): x1 = lin3 (relu (lin2 (relu (lin1 h0)))) and
   x2 (p, r) = h3 (p) · W_r · h3 (p) + b (r) with h3 = relu (lin4 (relu (lin1 h0))), the 64 region matrices laid side
   by side and contracted one region at a time. The reference computes the same with host dot_generals, one product
   against all 64 regions at once, a reshape to [N, 64, 256] and a sum over the last axis.

   On the extended reals narrowing to bf16 is the identity, a product accumulated into zero is the product, and every
   sum on one side is the same sum, term by term and in the same order, on the other: no law that would need finite
   inputs is used. The glue between the feature product and h0 is the same list of host operations in both programs
   and is carried as one function of the product; both heads are read as functions of h0, of the transposed weight
   matrices and of the biases laid out as one row, and both sides reach the same such functions.

   The three frames are the generated ones (the reference's is its generated run with the results dropped); the ideal
   pass rewrote nothing, so the sanctioned-idealization claim is trivial. -/
import proofs.«151344_j24326694764553_1_alg».proof.Defs
import proofs.«151344_j24326694764553_1_alg».proof.Proof.Gen.Kernel
import proofs.«151344_j24326694764553_1_alg».proof.Proof.Gen.Kernel.Frame
import proofs.«151344_j24326694764553_1_alg».proof.Proof.Gen.KernelIdeal
import proofs.«151344_j24326694764553_1_alg».proof.Proof.Gen.KernelIdeal.Frame
import proofs.«151344_j24326694764553_1_alg».proof.Proof.Gen.ReferenceIdeal
import proofs.«151344_j24326694764553_1_alg».proof.Proof.Gen.ReferenceIdeal.Run
import proofs.«151344_j24326694764553_1_alg».proof.Proof.Gen.ReferenceIdeal.Read
import proofs.«151344_j24326694764553_1_alg».proof.Proof.Gen.Pre_finite_inputs
import proofs.«151344_j24326694764553_1_alg».proof.Proof.KernelValue
import proofs.«151344_j24326694764553_1_alg».proof.Proof.RefStages
import proofs.«151344_j24326694764553_1_alg».proof.Proof.SharedChain
import Idealize.ShloMosaic.Adequacy
import Idealize.ShloMosaic.Init

set_option maxRecDepth 16384

noncomputable section

namespace Cert.Proof

open Idealize.ShloMosaic Idealize.SL.Sem Cert.NodeHead

/-! ## The reference's two results as the same functions of its arguments -/

/-- The reference's first result: the scalar head of the glue of its own feature product. -/
theorem ref_x1 (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v75 m' c
      = score (n := 10000)
          (Cert.SharedChain.mid (prod (n := 10000) (m' ((c.tc : Thread Cert.ReferenceIdeal.nD Cert.ReferenceIdeal.τ).loc Cert.ReferenceIdeal.main_arg0)) (Cert.ReferenceIdeal.Read.val_main_v4 (F := Ideal) (m' ((c.tc : Thread Cert.ReferenceIdeal.nD Cert.ReferenceIdeal.τ).loc Cert.ReferenceIdeal.main_arg2))))
            (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)))
          (Cert.ReferenceIdeal.Read.val_main_v59 (F := Ideal) (m' ((c.tc : Thread Cert.ReferenceIdeal.nD Cert.ReferenceIdeal.τ).loc Cert.ReferenceIdeal.main_arg4)))
          (shapeCast ⟨2, ![1, 256]⟩ (m' ((c.tc : Thread Cert.ReferenceIdeal.nD Cert.ReferenceIdeal.τ).loc Cert.ReferenceIdeal.main_arg5)) Cert.KernelIdeal.Facts₀.shapeCasts_S256_S1x256)
          (Cert.ReferenceIdeal.Read.val_main_v65 (F := Ideal) (m' ((c.tc : Thread Cert.ReferenceIdeal.nD Cert.ReferenceIdeal.τ).loc Cert.ReferenceIdeal.main_arg6)))
          (shapeCast ⟨2, ![1, 256]⟩ (m' ((c.tc : Thread Cert.ReferenceIdeal.nD Cert.ReferenceIdeal.τ).loc Cert.ReferenceIdeal.main_arg7)) Cert.KernelIdeal.Facts₀.shapeCasts_S256_S1x256)
          (Cert.ReferenceIdeal.Read.val_main_v71 (F := Ideal) (m' ((c.tc : Thread Cert.ReferenceIdeal.nD Cert.ReferenceIdeal.τ).loc Cert.ReferenceIdeal.main_arg8)))
          (shapeCast ⟨2, ![1, 1]⟩ (m' ((c.tc : Thread Cert.ReferenceIdeal.nD Cert.ReferenceIdeal.τ).loc Cert.ReferenceIdeal.main_arg9)) Cert.KernelIdeal.Facts₀.shapeCasts_S1_S1x1) := by
  rw [Cert.ReferenceIdeal.Read.val_main_v75_eq,
    Cert.RefStages.ref_score _ _ _ _ _ _ _ _ _ _ Cert.KernelIdeal.Facts₀.shapeCasts_S256_S1x256 Cert.KernelIdeal.Facts₀.shapeCasts_S256_S1x256
      Cert.KernelIdeal.Facts₀.shapeCasts_S1_S1x1,
    Cert.SharedChain.ref_h0, Cert.RefStages.ref_conv]

/-- The reference's second result: the bilinear head of the same h0. -/
theorem ref_x2 (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v92 m' c
      = regionScores (n := 10000)
          (Cert.SharedChain.mid (prod (n := 10000) (m' ((c.tc : Thread Cert.ReferenceIdeal.nD Cert.ReferenceIdeal.τ).loc Cert.ReferenceIdeal.main_arg0)) (Cert.ReferenceIdeal.Read.val_main_v4 (F := Ideal) (m' ((c.tc : Thread Cert.ReferenceIdeal.nD Cert.ReferenceIdeal.τ).loc Cert.ReferenceIdeal.main_arg2))))
            (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)))
          (Cert.ReferenceIdeal.Read.val_main_v59 (F := Ideal) (m' ((c.tc : Thread Cert.ReferenceIdeal.nD Cert.ReferenceIdeal.τ).loc Cert.ReferenceIdeal.main_arg4)))
          (shapeCast ⟨2, ![1, 256]⟩ (m' ((c.tc : Thread Cert.ReferenceIdeal.nD Cert.ReferenceIdeal.τ).loc Cert.ReferenceIdeal.main_arg5)) Cert.KernelIdeal.Facts₀.shapeCasts_S256_S1x256)
          (Cert.ReferenceIdeal.Read.val_main_v76 (F := Ideal) (m' ((c.tc : Thread Cert.ReferenceIdeal.nD Cert.ReferenceIdeal.τ).loc Cert.ReferenceIdeal.main_arg10)))
          (shapeCast ⟨2, ![1, 256]⟩ (m' ((c.tc : Thread Cert.ReferenceIdeal.nD Cert.ReferenceIdeal.τ).loc Cert.ReferenceIdeal.main_arg11)) Cert.KernelIdeal.Facts₀.shapeCasts_S256_S1x256)
          (Cert.ReferenceIdeal.Read.val_main_v83 (F := Ideal) (m' ((c.tc : Thread Cert.ReferenceIdeal.nD Cert.ReferenceIdeal.τ).loc Cert.ReferenceIdeal.main_arg12)))
          (shapeCast ⟨2, ![1, 64]⟩ (m' ((c.tc : Thread Cert.ReferenceIdeal.nD Cert.ReferenceIdeal.τ).loc Cert.ReferenceIdeal.main_arg13)) Cert.KernelIdeal.Facts₀.shapeCasts_S64_S1x64) := by
  rw [Cert.ReferenceIdeal.Read.val_main_v92_eq,
    Cert.RefStages.ref_regionScores _ _ _ _ _ _ _ _ _ _ Cert.KernelIdeal.Facts₀.shapeCasts_S256_S1x256 Cert.KernelIdeal.Facts₀.shapeCasts_S256_S1x256
      Cert.KernelIdeal.Facts₀.shapeCasts_S64_S1x64,
    Cert.SharedChain.ref_h0, Cert.RefStages.ref_conv]

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs, from memories agreeing on the arguments, end with the scalar head and the bilinear head of the same
    h0: the kernel's by its two calls read as whole arrays, the reference's by its stages; the arguments agree, and the
    two programs' own spellings of the transposes and the one-row biases are the same operations. -/
theorem algebraic : Cert.algebraic_KernelIdeal_ReferenceIdeal := by
  intro m ρ m' ρ' _ hagree
  refine ⟨fun c => Cert.KernelValue.x1 m c, fun c => Cert.KernelValue.x2 m c, Cert.KernelValue.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨e0, e1, e2, e3, e4, e5, e6, e7, e8, e9, -⟩ := hagree c
    rw [ref_x1, e0, e1, e2, e3, e4, e5, e6, e7, e8, e9]
    rfl
  · obtain ⟨e0, e1, e2, e3, e4, e5, -, -, -, -, e10, e11, e12, e13⟩ := hagree c
    rw [ref_x2, e0, e1, e2, e3, e4, e5, e10, e11, e12, e13]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
